-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3072 : Shape := ⟨2, ![16384, 3072]⟩
abbrev S16384 : Shape := ⟨1, ![16384]⟩
abbrev S128x3072 : Shape := ⟨2, ![128, 3072]⟩
abbrev S128 : Shape := ⟨1, ![128]⟩
abbrev S16x3072 : Shape := ⟨2, ![16, 3072]⟩
abbrev S16 : Shape := ⟨1, ![16]⟩
abbrev S256x30 : Shape := ⟨2, ![256, 30]⟩
abbrev S256 : Shape := ⟨1, ![256]⟩
abbrev S8x32 : Shape := ⟨2, ![8, 32]⟩
abbrev S8 : Shape := ⟨1, ![8]⟩
abbrev S_ : Shape := ⟨0, ![]⟩

class Facts : Prop where
  bcast_S_S16384x3072 : S_.BroadcastsInDim S16384x3072 (![] : Fin 0 → Fin S16384x3072.rank)
  reducesTo_S16384x3072_S_d0_1 : S16384x3072.ReducesTo [0, 1] S_
  h_S_ : 0 < S_.numel
  bcast_S_S128x3072 : S_.BroadcastsInDim S128x3072 (![] : Fin 0 → Fin S128x3072.rank)
  reducesTo_S128x3072_S_d0_1 : S128x3072.ReducesTo [0, 1] S_
  bcast_S_S128 : S_.BroadcastsInDim S128 (![] : Fin 0 → Fin S128.rank)
  reducesTo_S128_S_d0 : S128.ReducesTo [0] S_
  bcast_S_S16x3072 : S_.BroadcastsInDim S16x3072 (![] : Fin 0 → Fin S16x3072.rank)
  reducesTo_S16x3072_S_d0_1 : S16x3072.ReducesTo [0, 1] S_
  bcast_S_S16 : S_.BroadcastsInDim S16 (![] : Fin 0 → Fin S16.rank)
  reducesTo_S16_S_d0 : S16.ReducesTo [0] S_
  bcast_S_S256x30 : S_.BroadcastsInDim S256x30 (![] : Fin 0 → Fin S256x30.rank)
  reducesTo_S256x30_S_d0_1 : S256x30.ReducesTo [0, 1] S_
  bcast_S_S256 : S_.BroadcastsInDim S256 (![] : Fin 0 → Fin S256.rank)
  reducesTo_S256_S_d0 : S256.ReducesTo [0] S_
  bcast_S_S8x32 : S_.BroadcastsInDim S8x32 (![] : Fin 0 → Fin S8x32.rank)
  reducesTo_S8x32_S_d0_1 : S8x32.ReducesTo [0, 1] S_
  bcast_S_S8 : S_.BroadcastsInDim S8 (![] : Fin 0 → Fin S8.rank)
  reducesTo_S8_S_d0 : S8.ReducesTo [0] S_
  bcast_S_S16384 : S_.BroadcastsInDim S16384 (![] : Fin 0 → Fin S16384.rank)
  reducesTo_S16384_S_d0 : S16384.ReducesTo [0] S_

variable [Facts]

def fn_part3 {F : FTy → Type} [FloatOps F] (main_v47 : IVec S_ 1) (main_v49 : IVec S16384 1) (main_c_19 : IVec S_ 1) : IVec S_ 1 :=
  let main_v50 : IVec S_ 1 := (fun x v => Host.reduce IntOp.andi x v reducesTo_S16384_S_d0 h_S_) main_v49 main_c_19
  let main_v51 : IVec S_ 1 := andi main_v47 main_v50
  main_v51

def fn_part2 {F : FTy → Type} [FloatOps F] (main_arg1 : IVec S16384 32) (main_arg8 : FVec F S8x32 .f32) (main_arg9 : FVec F S8 .f32) (main_v33 : IVec S_ 1) : IVec S_ 1 :=
  let main_v34 : FVec F S8x32 .f32 := Host.absf main_arg8
  let main_cst_12 : FVec F S_ .f32 := constant S_ .f32 0x7F800000#32
  let main_v35 : FVec F S8x32 .f32 := broadcastInDim S8x32 ![] bcast_S_S8x32 main_cst_12
  let main_v36 : IVec S8x32 1 := cmpf .olt main_v34 main_v35
  let main_c_13 : IVec S_ 1 := constantI S_ 1 1#1
  let main_v37 : IVec S_ 1 := (fun x v => Host.reduce IntOp.andi x v reducesTo_S8x32_S_d0_1 h_S_) main_v36 main_c_13
  let main_v38 : IVec S_ 1 := andi main_v33 main_v37
  let main_v39 : FVec F S8 .f32 := Host.absf main_arg9
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_c_16 : IVec S_ 32 := constantI S_ 32 0#32
  let main_v44 : IVec S16384 32 := broadcastInDim S16384 ![] bcast_S_S16384 main_c_16
  let main_v45 : IVec S16384 1 := cmpi .sge main_arg1 main_v44
  let main_c_17 : IVec S_ 1 := constantI S_ 1 1#1
  let main_v46 : IVec S_ 1 := (fun x v => Host.reduce IntOp.andi x v reducesTo_S16384_S_d0 h_S_) main_v45 main_c_17
  let main_v47 : IVec S_ 1 := andi main_v43 main_v46
  let main_c_18 : IVec S_ 32 := constantI S_ 32 8#32
  let main_v48 : IVec S16384 32 := broadcastInDim S16384 ![] bcast_S_S16384 main_c_18
  let main_v49 : IVec S16384 1 := cmpi .slt main_arg1 main_v48
  let main_c_19 : IVec S_ 1 := constantI S_ 1 1#1
  fn_part3 (F := F) main_v47 main_v49 main_c_19

def fn_part1 {F : FTy → Type} [FloatOps F] (main_arg1 : IVec S16384 32) (main_arg5 : FVec F S16 .f32) (main_arg6 : FVec F S256x30 .f32) (main_arg7 : FVec F S256 .f32) (main_arg8 : FVec F S8x32 .f32) (main_arg9 : FVec F S8 .f32) (main_v13 : IVec S_ 1) (main_v16 : IVec S16x3072 1) : IVec S_ 1 :=
  let main_c_5 : IVec S_ 1 := constantI S_ 1 1#1
  let main_v17 : IVec S_ 1 := (fun x v => Host.reduce IntOp.andi x v reducesTo_S16x3072_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S256x30 .f32 := Host.absf main_arg6
  let main_cst_8 : FVec F S_ .f32 := constant S_ .f32 0x7F800000#32
  let main_v25 : FVec F S256x30 .f32 := broadcastInDim S256x30 ![] bcast_S_S256x30 main_cst_8
  let main_v26 : IVec S256x30 1 := cmpf .olt main_v24 main_v25
  let main_c_9 : IVec S_ 1 := constantI S_ 1 1#1
  let main_v27 : IVec S_ 1 := (fun x v => Host.reduce IntOp.andi x v reducesTo_S256x30_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg8 main_arg9 main_v33

def fn {F : FTy → Type} [FloatOps F] (main_arg0 : FVec F S16384x3072 .f32) (main_arg1 : IVec S16384 32) (main_arg2 : FVec F S128x3072 .f32) (main_arg3 : FVec F S128 .f32) (main_arg4 : FVec F S16x3072 .f32) (main_arg5 : FVec F S16 .f32) (main_arg6 : FVec F S256x30 .f32) (main_arg7 : FVec F S256 .f32) (main_arg8 : FVec F S8x32 .f32) (main_arg9 : FVec F S8 .f32) : IVec S_ 1 :=
  let main_v0 : FVec F S16384x3072 .f32 := Host.absf main_arg0
  let main_cst : FVec F S_ .f32 := constant S_ .f32 0x7F800000#32
  let main_v1 : FVec F S16384x3072 .f32 := broadcastInDim S16384x3072 ![] bcast_S_S16384x3072 main_cst
  let main_v2 : IVec S16384x3072 1 := cmpf .olt main_v0 main_v1
  let main_c : IVec S_ 1 := constantI S_ 1 1#1
  let main_v3 : IVec S_ 1 := (fun x v => Host.reduce IntOp.andi x v reducesTo_S16384x3072_S_d0_1 h_S_) main_v2 main_c
  let main_v4 : FVec F S128x3072 .f32 := Host.absf main_arg2
  let main_cst_0 : FVec F S_ .f32 := constant S_ .f32 0x7F800000#32
  let main_v5 : FVec F S128x3072 .f32 := broadcastInDim S128x3072 ![] bcast_S_S128x3072 main_cst_0
  let main_v6 : IVec S128x3072 1 := cmpf .olt main_v4 main_v5
  let main_c_1 : IVec S_ 1 := constantI S_ 1 1#1
  let main_v7 : IVec S_ 1 := (fun x v => Host.reduce IntOp.andi x v reducesTo_S128x3072_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S16x3072 .f32 := Host.absf main_arg4
  let main_cst_4 : FVec F S_ .f32 := constant S_ .f32 0x7F800000#32
  let main_v15 : FVec F S16x3072 .f32 := broadcastInDim S16x3072 ![] bcast_S_S16x3072 main_cst_4
  let main_v16 : IVec S16x3072 1 := cmpf .olt main_v14 main_v15
  fn_part1 (F := F) main_arg1 main_arg5 main_arg6 main_arg7 main_arg8 main_arg9 main_v13 main_v16
-- ==== Kernel.lean ====
abbrev S16384x3072 : Shape := ⟨2, ![16384, 3072]⟩
abbrev S16384 : Shape := ⟨1, ![16384]⟩
abbrev S128x3072 : Shape := ⟨2, ![128, 3072]⟩
abbrev S128 : Shape := ⟨1, ![128]⟩
abbrev S16x3072 : Shape := ⟨2, ![16, 3072]⟩
abbrev S16 : Shape := ⟨1, ![16]⟩
abbrev S256x30 : Shape := ⟨2, ![256, 30]⟩
abbrev S256 : Shape := ⟨1, ![256]⟩
abbrev S8x32 : Shape := ⟨2, ![8, 32]⟩
abbrev S8 : Shape := ⟨1, ![8]⟩
abbrev S_ : Shape := ⟨0, ![]⟩
abbrev S144x3072 : Shape := ⟨2, ![144, 3072]⟩
abbrev S144 : Shape := ⟨1, ![144]⟩
abbrev S3072x144 : Shape := ⟨2, ![3072, 144]⟩
abbrev S1x144 : Shape := ⟨2, ![1, 144]⟩
abbrev S30x256 : Shape := ⟨2, ![30, 256]⟩
abbrev S1x256 : Shape := ⟨2, ![1, 256]⟩
abbrev S32x8 : Shape := ⟨2, ![32, 8]⟩
abbrev S1x8 : Shape := ⟨2, ![1, 8]⟩
abbrev S1024x3072 : Shape := ⟨2, ![1024, 3072]⟩
abbrev S1024 : Shape := ⟨1, ![1024]⟩
abbrev S1024x144 : Shape := ⟨2, ![1024, 144]⟩
abbrev S1024x1 : Shape := ⟨2, ![1024, 1]⟩
abbrev S1024x8 : Shape := ⟨2, ![1024, 8]⟩
abbrev S1024x128 : Shape := ⟨2, ![1024, 128]⟩
abbrev S1024x16 : Shape := ⟨2, ![1024, 16]⟩
abbrev S1024x15 : Shape := ⟨2, ![1024, 15]⟩
abbrev S1024x30 : Shape := ⟨2, ![1024, 30]⟩
abbrev S1024x256 : Shape := ⟨2, ![1024, 256]⟩
abbrev S1024x32 : Shape := ⟨2, ![1024, 32]⟩
abbrev S16384x1 : Shape := ⟨2, ![16384, 1]⟩

abbrev nBuf : Space → Nat
  | .hbm => 31
  | .vmem => 12
  | .smem => 0
  | _ => 0

abbrev bufTy : (tb : Table) → Fin (tcTables nBuf tb) → BufTy
  | .hbm, ⟨0, _⟩ => ⟨S16384x3072, .f32⟩
  | .hbm, ⟨1, _⟩ => ⟨S16384, .i32⟩
  | .hbm, ⟨2, _⟩ => ⟨S128x3072, .f32⟩
  | .hbm, ⟨3, _⟩ => ⟨S128, .f32⟩
  | .hbm, ⟨4, _⟩ => ⟨S16x3072, .f32⟩
  | .hbm, ⟨5, _⟩ => ⟨S16, .f32⟩
  | .hbm, ⟨6, _⟩ => ⟨S256x30, .f32⟩
  | .hbm, ⟨7, _⟩ => ⟨S256, .f32⟩
  | .hbm, ⟨8, _⟩ => ⟨S8x32, .f32⟩
  | .hbm, ⟨9, _⟩ => ⟨S8, .f32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S144x3072, .f32⟩
  | .hbm, ⟨19, _⟩ => ⟨S144, .f32⟩
  | .hbm, ⟨20, _⟩ => ⟨S3072x144, .f32⟩
  | .hbm, ⟨21, _⟩ => ⟨S3072x144, .bf16⟩
  | .hbm, ⟨22, _⟩ => ⟨S1x144, .f32⟩
  | .hbm, ⟨23, _⟩ => ⟨S30x256, .f32⟩
  | .hbm, ⟨24, _⟩ => ⟨S30x256, .bf16⟩
  | .hbm, ⟨25, _⟩ => ⟨S1x256, .f32⟩
  | .hbm, ⟨26, _⟩ => ⟨S32x8, .f32⟩
  | .hbm, ⟨27, _⟩ => ⟨S32x8, .bf16⟩
  | .hbm, ⟨28, _⟩ => ⟨S1x8, .f32⟩
  | .hbm, ⟨29, _⟩ => ⟨S16384, .f32⟩
  | .hbm, ⟨30, _⟩ => ⟨S16384x1, .f32⟩
  | .local _ .vmem, ⟨0, _⟩ => ⟨S1024x3072, .f32⟩
  | .local _ .vmem, ⟨1, _⟩ => ⟨S1024x3072, .f32⟩
  | .local _ .vmem, ⟨2, _⟩ => ⟨S1024, .i32⟩
  | .local _ .vmem, ⟨3, _⟩ => ⟨S1024, .i32⟩
  | .local _ .vmem, ⟨4, _⟩ => ⟨S3072x144, .bf16⟩
  | .local _ .vmem, ⟨5, _⟩ => ⟨S1x144, .f32⟩
  | .local _ .vmem, ⟨6, _⟩ => ⟨S30x256, .bf16⟩
  | .local _ .vmem, ⟨7, _⟩ => ⟨S1x256, .f32⟩
  | .local _ .vmem, ⟨8, _⟩ => ⟨S32x8, .bf16⟩
  | .local _ .vmem, ⟨9, _⟩ => ⟨S1x8, .f32⟩
  | .local _ .vmem, ⟨10, _⟩ => ⟨S1024, .f32⟩
  | .local _ .vmem, ⟨11, _⟩ => ⟨S1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1024x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3072x144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S30x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x8 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S16384 : S_.BroadcastsInDim S16384 (![] : Fin 0 → Fin S16384.rank)
  concatenates_S128x3072_S16x3072_S144x3072_d0 : Shape.Concatenates [S128x3072, S16x3072] S144x3072 0
  concatenates_S128_S16_S144_d0 : Shape.Concatenates [S128, S16] S144 0
  transposes_S144x3072_S3072x144_1_0 : S144x3072.Transposes [1, 0] S3072x144
  bitsLt_bf16_f32 : FTy.bits .bf16 < FTy.bits .f32
  shapeCasts_S144_S1x144 : S144.ShapeCasts S1x144
  transposes_S256x30_S30x256_1_0 : S256x30.Transposes [1, 0] S30x256
  shapeCasts_S256_S1x256 : S256.ShapeCasts S1x256
  transposes_S8x32_S32x8_1_0 : S8x32.Transposes [1, 0] S32x8
  shapeCasts_S8_S1x8 : S8.ShapeCasts S1x8
  inb_S1024x3072_S1024x3072_0_0 : ∀ a, (![0, 0] : Fin 2 → Nat) a + S1024x3072.size a ≤ S1024x3072.size a
  h_S1024x3072 : 0 < S1024x3072.numel
  inb_S3072x144_S3072x144_0_0 : ∀ a, (![0, 0] : Fin 2 → Nat) a + S3072x144.size a ≤ S3072x144.size a
  h_S3072x144 : 0 < S3072x144.numel
  shapeCasts_S3072x144_S3072x144 : S3072x144.ShapeCasts S3072x144
  inb_S1x144_S1x144_0_0 : ∀ a, (![0, 0] : Fin 2 → Nat) a + S1x144.size a ≤ S1x144.size a
  h_S1x144 : 0 < S1x144.numel
  shapeCasts_S1x144_S1x144 : S1x144.ShapeCasts S1x144
  broadcasts_S1x144_S1024x144 : S1x144.Broadcasts S1024x144
  inb_S1024_S1024_0 : ∀ a, (![0] : Fin 1 → Nat) a + S1024.size a ≤ S1024.size a
  h_S1024 : 0 < S1024.numel
  shapeCasts_S1024_S1024 : S1024.ShapeCasts S1024
  shapeCasts_S1024_S1024x1 : S1024.ShapeCasts S1024x1
  iota_S1024x8_d1_w32 : S1024x8.Iotas .tc 32 [1]
  broadcasts_S1024x1_S1024x8 : S1024x1.Broadcasts S1024x8
  natLt_1_32 : 1 < 32
  slices_S1024x144_o0_0_S1024x128 : S1024x144.Slices ![0, 0] S1024x128
  slices_S1024x144_o0_128_S1024x16 : S1024x144.Slices ![0, 128] S1024x16
  slices_S1024x8_o0_0_S1024x1 : S1024x8.Slices ![0, 0] S1024x1
  slices_S1024x128_o0_0_S1024x16 : S1024x128.Slices ![0, 0] S1024x16
  broadcasts_S1024x1_S1024x16 : S1024x1.Broadcasts S1024x16
  slices_S1024x8_o0_1_S1024x1 : S1024x8.Slices ![0, 1] S1024x1
  slices_S1024x128_o0_16_S1024x16 : S1024x128.Slices ![0, 16] S1024x16
  slices_S1024x8_o0_2_S1024x1 : S1024x8.Slices ![0, 2] S1024x1
  slices_S1024x128_o0_32_S1024x16 : S1024x128.Slices ![0, 32] S1024x16
  slices_S1024x8_o0_3_S1024x1 : S1024x8.Slices ![0, 3] S1024x1
  slices_S1024x128_o0_48_S1024x16 : S1024x128.Slices ![0, 48] S1024x16
  slices_S1024x8_o0_4_S1024x1 : S1024x8.Slices ![0, 4] S1024x1
  slices_S1024x128_o0_64_S1024x16 : S1024x128.Slices ![0, 64] S1024x16
  slices_S1024x8_o0_5_S1024x1 : S1024x8.Slices ![0, 5] S1024x1
  slices_S1024x128_o0_80_S1024x16 : S1024x128.Slices ![0, 80] S1024x16
  slices_S1024x8_o0_6_S1024x1 : S1024x8.Slices ![0, 6] S1024x1
  slices_S1024x128_o0_96_S1024x16 : S1024x128.Slices ![0, 96] S1024x16
  slices_S1024x8_o0_7_S1024x1 : S1024x8.Slices ![0, 7] S1024x1
  slices_S1024x128_o0_112_S1024x16 : S1024x128.Slices ![0, 112] S1024x16
  slices_S1024x16_o0_0_S1024x15 : S1024x16.Slices ![0, 0] S1024x15
  slices_S1024x16_o0_15_S1024x1 : S1024x16.Slices ![0, 15] S1024x1
  concatenates_S1024x15_S1024x15_S1024x30_d1 : Shape.Concatenates [S1024x15, S1024x15] S1024x30 1
  inb_S30x256_S30x256_0_0 : ∀ a, (![0, 0] : Fin 2 → Nat) a + S30x256.size a ≤ S30x256.size a
  h_S30x256 : 0 < S30x256.numel
  shapeCasts_S30x256_S30x256 : S30x256.ShapeCasts S30x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  slices_S1024x256_o0_0_S1024x32 : S1024x256.Slices ![0, 0] S1024x32
  broadcasts_S1024x1_S1024x32 : S1024x1.Broadcasts S1024x32
  slices_S1024x256_o0_32_S1024x32 : S1024x256.Slices ![0, 32] S1024x32
  slices_S1024x256_o0_64_S1024x32 : S1024x256.Slices ![0, 64] S1024x32
  slices_S1024x256_o0_96_S1024x32 : S1024x256.Slices ![0, 96] S1024x32
  slices_S1024x256_o0_128_S1024x32 : S1024x256.Slices ![0, 128] S1024x32
  slices_S1024x256_o0_160_S1024x32 : S1024x256.Slices ![0, 160] S1024x32
  slices_S1024x256_o0_192_S1024x32 : S1024x256.Slices ![0, 192] S1024x32
  slices_S1024x256_o0_224_S1024x32 : S1024x256.Slices ![0, 224] S1024x32
  inb_S32x8_S32x8_0_0 : ∀ a, (![0, 0] : Fin 2 → Nat) a + S32x8.size a ≤ S32x8.size a
  h_S32x8 : 0 < S32x8.numel
  shapeCasts_S32x8_S32x8 : S32x8.ShapeCasts S32x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S1024x8 : S1x8.Broadcasts S1024x8
  reduces_S1024x8_S1024 : S1024x8.Reduces [1] S1024
  shapeCasts_S1024x1_S1024 : S1024x1.ShapeCasts S1024
  shapeCasts_S16384_S16384x1 : S16384.ShapeCasts S16384x1
  dot_S1024x3072_S3072x144_S1024x144_1_0_0_1_n_n_wf : DotDims.WF S1024x3072 S3072x144 S1024x144 [1] [0] [0] [1] [] []
  dot_S1024x30_S30x256_S1024x256_1_0_0_1_n_n_wf : DotDims.WF S1024x30 S30x256 S1024x256 [1] [0] [0] [1] [] []
  dot_S1024x32_S32x8_S1024x8_1_0_0_1_n_n_wf : DotDims.WF S1024x32 S32x8 S1024x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3072.size a ≤ S16384x3072.size a
  hwx0_0 : ∀ i : grid0.Coords, EltTy.bits .f32 = 32 ∨ (Rect.block (s := S16384x3072) S1024x3072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S16384.size a
  hwx0_1 : ∀ i : grid0.Coords, EltTy.bits .i32 = 32 ∨ (Rect.block (s := S16384) S1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072x144.size a ≤ S3072x144.size a
  hwx0_2 : ∀ i : grid0.Coords, EltTy.bits .bf16 = 32 ∨ (Rect.block (s := S3072x144) S3072x144.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x144.size a ≤ S1x144.size a
  hwx0_3 : ∀ i : grid0.Coords, EltTy.bits .f32 = 32 ∨ (Rect.block (s := S1x144) S1x144.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S30x256.size a ≤ S30x256.size a
  hwx0_4 : ∀ i : grid0.Coords, EltTy.bits .bf16 = 32 ∨ (Rect.block (s := S30x256) S30x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x8.size a ≤ S32x8.size a
  hwx0_6 : ∀ i : grid0.Coords, EltTy.bits .bf16 = 32 ∨ (Rect.block (s := S32x8) S32x8.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x8.size a ≤ S1x8.size a
  hwx0_7 : ∀ i : grid0.Coords, EltTy.bits .f32 = 32 ∨ (Rect.block (s := S1x8) S1x8.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S16384.size a
  hwx0_8 : ∀ i : grid0.Coords, EltTy.bits .f32 = 32 ∨ (Rect.block (s := S16384) S1024.size (cc0_transform_8 i) (hinb0_8 i)).WholeWords (EltTy.packing .f32)

variable [Facts₀]

def dot_S1024x3072_S3072x144_S1024x144_1_0_0_1_n_n : DotDims S1024x3072 S3072x144 S1024x144 where
  lhsContracting := [1]
  rhsContracting := [0]
  lhsNonContracting := [0]
  rhsNonContracting := [1]
  lhsBatch := []
  rhsBatch := []
  wf := dot_S1024x3072_S3072x144_S1024x144_1_0_0_1_n_n_wf
def dot_S1024x30_S30x256_S1024x256_1_0_0_1_n_n : DotDims S1024x30 S30x256 S1024x256 where
  lhsContracting := [1]
  rhsContracting := [0]
  lhsNonContracting := [0]
  rhsNonContracting := [1]
  lhsBatch := []
  rhsBatch := []
  wf := dot_S1024x30_S30x256_S1024x256_1_0_0_1_n_n_wf
def dot_S1024x32_S32x8_S1024x8_1_0_0_1_n_n : DotDims S1024x32 S32x8 S1024x8 where
  lhsContracting := [1]
  rhsContracting := [0]
  lhsNonContracting := [0]
  rhsNonContracting := [1]
  lhsBatch := []
  rhsBatch := []
  wf := dot_S1024x32_S32x8_S1024x8_1_0_0_1_n_n_wf

abbrev win0_0 : Pipeline.Window sig grid0 :=
  Pipeline.Window.ofSpec (Memref.whole main_arg0) S1024x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S3072x144.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x144.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S30x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S32x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x3072 : Shape := ⟨2, ![16384, 3072]⟩
abbrev S16384 : Shape := ⟨1, ![16384]⟩
abbrev S128x3072 : Shape := ⟨2, ![128, 3072]⟩
abbrev S128 : Shape := ⟨1, ![128]⟩
abbrev S16x3072 : Shape := ⟨2, ![16, 3072]⟩
abbrev S16 : Shape := ⟨1, ![16]⟩
abbrev S256x30 : Shape := ⟨2, ![256, 30]⟩
abbrev S256 : Shape := ⟨1, ![256]⟩
abbrev S8x32 : Shape := ⟨2, ![8, 32]⟩
abbrev S8 : Shape := ⟨1, ![8]⟩
abbrev S3072x128 : Shape := ⟨2, ![3072, 128]⟩
abbrev S16384x128 : Shape := ⟨2, ![16384, 128]⟩
abbrev S1x128 : Shape := ⟨2, ![1, 128]⟩
abbrev S16384x8x16 : Shape := ⟨3, ![16384, 8, 16]⟩
abbrev S16384x1x1 : Shape := ⟨3, ![16384, 1, 1]⟩
abbrev S_ : Shape := ⟨0, ![]⟩
abbrev S1 : Shape := ⟨1, ![1]⟩
abbrev S1x1x1 : Shape := ⟨3, ![1, 1, 1]⟩
abbrev S16384x1 : Shape := ⟨2, ![16384, 1]⟩
abbrev S16384x1x16 : Shape := ⟨3, ![16384, 1, 16]⟩
abbrev S16384x16 : Shape := ⟨2, ![16384, 16]⟩
abbrev S3072x16 : Shape := ⟨2, ![3072, 16]⟩
abbrev S1x16 : Shape := ⟨2, ![1, 16]⟩
abbrev S16384x15 : Shape := ⟨2, ![16384, 15]⟩
abbrev S16384x30 : Shape := ⟨2, ![16384, 30]⟩
abbrev S30x256 : Shape := ⟨2, ![30, 256]⟩
abbrev S16384x256 : Shape := ⟨2, ![16384, 256]⟩
abbrev S1x256 : Shape := ⟨2, ![1, 256]⟩
abbrev S16384x8x32 : Shape := ⟨3, ![16384, 8, 32]⟩
abbrev S16384x1x32 : Shape := ⟨3, ![16384, 1, 32]⟩
abbrev S16384x32 : Shape := ⟨2, ![16384, 32]⟩
abbrev S32x8 : Shape := ⟨2, ![32, 8]⟩
abbrev S16384x8 : Shape := ⟨2, ![16384, 8]⟩
abbrev S1x8 : Shape := ⟨2, ![1, 8]⟩
abbrev S16384x8x1 : Shape := ⟨3, ![16384, 8, 1]⟩

abbrev nBuf : Space → Nat
  | .hbm => 133
  | .vmem => 0
  | .smem => 0
  | _ => 0

abbrev hbmTy0_0 (i : Nat) : BufTy := match i % 128 with
  | 0 => ⟨S16384x3072, .f32⟩
  | 1 => ⟨S16384, .i32⟩
  | 2 => ⟨S128x3072, .f32⟩
  | 3 => ⟨S128, .f32⟩
  | 4 => ⟨S16x3072, .f32⟩
  | 5 => ⟨S16, .f32⟩
  | 6 => ⟨S256x30, .f32⟩
  | 7 => ⟨S256, .f32⟩
  | 8 => ⟨S8x32, .f32⟩
  | 9 => ⟨S8, .f32⟩
  | 10 => ⟨S3072x128, .f32⟩
  | 11 => ⟨S16384x128, .f32⟩
  | 12 => ⟨S1x128, .f32⟩
  | 13 => ⟨S16384x128, .f32⟩
  | 14 => ⟨S16384x128, .f32⟩
  | 15 => ⟨S16384x8x16, .f32⟩
  | 16 => ⟨S16384x1x1, .i32⟩
  | 17 => ⟨S_, .i32⟩
  | 18 => ⟨S16384x1x1, .i32⟩
  | 19 => ⟨S16384x1x1, .i1⟩
  | 20 => ⟨S_, .i32⟩
  | 21 => ⟨S16384x1x1, .i32⟩
  | 22 => ⟨S16384x1x1, .i32⟩
  | 23 => ⟨S16384x1x1, .i32⟩
  | 24 => ⟨S1, .i32⟩
  | 25 => ⟨S_, .i32⟩
  | 26 => ⟨S16384x1x1, .i32⟩
  | 27 => ⟨S16384x1x1, .i1⟩
  | 28 => ⟨S1x1x1, .i32⟩
  | 29 => ⟨S16384x1x1, .i32⟩
  | 30 => ⟨S16384x1x1, .i1⟩
  | 31 => ⟨S16384x1x1, .i1⟩
  | 32 => ⟨S_, .i1⟩
  | 33 => ⟨S16384x1, .i1⟩
  | 34 => ⟨S16384x1x16, .f32⟩
  | 35 => ⟨S16384x1x16, .i1⟩
  | 36 => ⟨S_, .f32⟩
  | 37 => ⟨S16384x1x16, .f32⟩
  | 38 => ⟨S16384x1x16, .f32⟩
  | 39 => ⟨S16384x16, .f32⟩
  | 40 => ⟨S3072x16, .f32⟩
  | 41 => ⟨S16384x16, .f32⟩
  | 42 => ⟨S1x16, .f32⟩
  | 43 => ⟨S16384x16, .f32⟩
  | 44 => ⟨S16384x16, .f32⟩
  | 45 => ⟨S16384x15, .f32⟩
  | 46 => ⟨S16384x1, .f32⟩
  | 47 => ⟨S16384x15, .f32⟩
  | 48 => ⟨S16384x1, .f32⟩
  | 49 => ⟨S16384x15, .f32⟩
  | 50 => ⟨S16384x15, .f32⟩
  | 51 => ⟨S_, .f32⟩
  | 52 => ⟨S16384x15, .f32⟩
  | 53 => ⟨S16384x15, .f32⟩
  | 54 => ⟨S16384x30, .f32⟩
  | 55 => ⟨S_, .f32⟩
  | 56 => ⟨S_, .f32⟩
  | 57 => ⟨S_, .f32⟩
  | 58 => ⟨S16384x30, .f32⟩
  | 59 => ⟨S16384x30, .f32⟩
  | 60 => ⟨S_, .f32⟩
  | 61 => ⟨S16384x30, .f32⟩
  | 62 => ⟨S16384x30, .f32⟩
  | 63 => ⟨S30x256, .f32⟩
  | 64 => ⟨S16384x256, .f32⟩
  | 65 => ⟨S1x256, .f32⟩
  | 66 => ⟨S16384x256, .f32⟩
  | 67 => ⟨S16384x256, .f32⟩
  | 68 => ⟨S16384x8x32, .f32⟩
  | 69 => ⟨S16384x1x1, .i32⟩
  | 70 => ⟨S_, .i32⟩
  | 71 => ⟨S16384x1x1, .i32⟩
  | 72 => ⟨S16384x1x1, .i1⟩
  | 73 => ⟨S_, .i32⟩
  | 74 => ⟨S16384x1x1, .i32⟩
  | 75 => ⟨S16384x1x1, .i32⟩
  | 76 => ⟨S16384x1x1, .i32⟩
  | 77 => ⟨S1, .i32⟩
  | 78 => ⟨S_, .i32⟩
  | 79 => ⟨S16384x1x1, .i32⟩
  | 80 => ⟨S16384x1x1, .i1⟩
  | 81 => ⟨S1x1x1, .i32⟩
  | 82 => ⟨S16384x1x1, .i32⟩
  | 83 => ⟨S16384x1x1, .i1⟩
  | 84 => ⟨S16384x1x1, .i1⟩
  | 85 => ⟨S_, .i1⟩
  | 86 => ⟨S16384x1, .i1⟩
  | 87 => ⟨S16384x1x32, .f32⟩
  | 88 => ⟨S16384x1x32, .i1⟩
  | 89 => ⟨S_, .f32⟩
  | 90 => ⟨S16384x1x32, .f32⟩
  | 91 => ⟨S16384x1x32, .f32⟩
  | 92 => ⟨S16384x32, .f32⟩
  | 93 => ⟨S_, .f32⟩
  | 94 => ⟨S_, .f32⟩
  | 95 => ⟨S_, .f32⟩
  | 96 => ⟨S16384x32, .f32⟩
  | 97 => ⟨S16384x32, .f32⟩
  | 98 => ⟨S_, .f32⟩
  | 99 => ⟨S16384x32, .f32⟩
  | 100 => ⟨S16384x32, .f32⟩
  | 101 => ⟨S32x8, .f32⟩
  | 102 => ⟨S16384x8, .f32⟩
  | 103 => ⟨S1x8, .f32⟩
  | 104 => ⟨S16384x8, .f32⟩
  | 105 => ⟨S16384x8, .f32⟩
  | 106 => ⟨S16384x8x1, .f32⟩
  | 107 => ⟨S16384x1x1, .i32⟩
  | 108 => ⟨S_, .i32⟩
  | 109 => ⟨S16384x1x1, .i32⟩
  | 110 => ⟨S16384x1x1, .i1⟩
  | 111 => ⟨S_, .i32⟩
  | 112 => ⟨S16384x1x1, .i32⟩
  | 113 => ⟨S16384x1x1, .i32⟩
  | 114 => ⟨S16384x1x1, .i32⟩
  | 115 => ⟨S1, .i32⟩
  | 116 => ⟨S_, .i32⟩
  | 117 => ⟨S16384x1x1, .i32⟩
  | 118 => ⟨S16384x1x1, .i1⟩
  | 119 => ⟨S1x1x1, .i32⟩
  | 120 => ⟨S16384x1x1, .i32⟩
  | 121 => ⟨S16384x1x1, .i1⟩
  | 122 => ⟨S16384x1x1, .i1⟩
  | 123 => ⟨S_, .i1⟩
  | 124 => ⟨S16384x1, .i1⟩
  | 125 => ⟨S16384x1x1, .f32⟩
  | 126 => ⟨S16384x1x1, .i1⟩
  | 127 => ⟨S_, .f32⟩
  | _ => ⟨S16384x3072, .f32⟩

abbrev hbmTy0_1 (i : Nat) : BufTy := match i % 128 with
  | 0 => ⟨S16384x1x1, .f32⟩
  | 1 => ⟨S16384x1x1, .f32⟩
  | 2 => ⟨S16384x1, .f32⟩
  | 3 => ⟨S16384x1, .f32⟩
  | 4 => ⟨S16384x1, .f32⟩
  | _ => ⟨S16384x3072, .f32⟩

abbrev hbmTy (i : Nat) : BufTy := match i / 128 with
  | 0 => hbmTy0_0 i
  | 1 => hbmTy0_1 i
  | _ => ⟨S16384x3072, .f32⟩

abbrev bufTy : (tb : Table) → Fin (tcTables nBuf tb) → BufTy
  | .hbm, ⟨i, _⟩ => hbmTy i
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_1 : Ref sig .tc := ⟨.hbm, 24, rfl⟩
abbrev main_call0_c_2 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_c_3 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_cst : Ref sig .tc := ⟨.hbm, 36, rfl⟩
abbrev main_call0_v14 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_cst_0 : Ref sig .tc := ⟨.hbm, 55, rfl⟩
abbrev main_cst_1 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_call2_c : Ref sig .tc := ⟨.hbm, 70, rfl⟩
abbrev main_call2_v0 : Ref sig .tc := ⟨.hbm, 71, rfl⟩
abbrev main_call2_v1 : Ref sig .tc := ⟨.hbm, 72, rfl⟩
abbrev main_call2_c_0 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_c_1 : Ref sig .tc := ⟨.hbm, 77, rfl⟩
abbrev main_call2_c_2 : Ref sig .tc := ⟨.hbm, 78, rfl⟩
abbrev main_call2_v5 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_v9 : Ref sig .tc := ⟨.hbm, 83, rfl⟩
abbrev main_call2_v10 : Ref sig .tc := ⟨.hbm, 84, rfl⟩
abbrev main_call2_c_3 : Ref sig .tc := ⟨.hbm, 85, rfl⟩
abbrev main_call2_v11 : Ref sig .tc := ⟨.hbm, 86, rfl⟩
abbrev main_call2_v12 : Ref sig .tc := ⟨.hbm, 87, rfl⟩
abbrev main_call2_v13 : Ref sig .tc := ⟨.hbm, 88, rfl⟩
abbrev main_call2_cst : Ref sig .tc := ⟨.hbm, 89, rfl⟩
abbrev main_call2_v14 : Ref sig .tc := ⟨.hbm, 90, rfl⟩
abbrev main_v31 : Ref sig .tc := ⟨.hbm, 91, rfl⟩
abbrev main_v32 : Ref sig .tc := ⟨.hbm, 92, rfl⟩
abbrev main_cst_2 : Ref sig .tc := ⟨.hbm, 93, rfl⟩
abbrev main_cst_3 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_call4_c : Ref sig .tc := ⟨.hbm, 108, rfl⟩
abbrev main_call4_v0 : Ref sig .tc := ⟨.hbm, 109, rfl⟩
abbrev main_call4_v1 : Ref sig .tc := ⟨.hbm, 110, rfl⟩
abbrev main_call4_c_0 : Ref sig .tc := ⟨.hbm, 111, rfl⟩
abbrev main_call4_v2 : Ref sig .tc := ⟨.hbm, 112, rfl⟩
abbrev main_call4_v3 : Ref sig .tc := ⟨.hbm, 113, rfl⟩
abbrev main_call4_v4 : Ref sig .tc := ⟨.hbm, 114, rfl⟩
abbrev main_call4_c_1 : Ref sig .tc := ⟨.hbm, 115, rfl⟩
abbrev main_call4_c_2 : Ref sig .tc := ⟨.hbm, 116, rfl⟩
abbrev main_call4_v5 : Ref sig .tc := ⟨.hbm, 117, rfl⟩
abbrev main_call4_v6 : Ref sig .tc := ⟨.hbm, 118, rfl⟩
abbrev main_call4_v7 : Ref sig .tc := ⟨.hbm, 119, rfl⟩
abbrev main_call4_v8 : Ref sig .tc := ⟨.hbm, 120, rfl⟩
abbrev main_call4_v9 : Ref sig .tc := ⟨.hbm, 121, rfl⟩
abbrev main_call4_v10 : Ref sig .tc := ⟨.hbm, 122, rfl⟩
abbrev main_call4_c_3 : Ref sig .tc := ⟨.hbm, 123, rfl⟩
abbrev main_call4_v11 : Ref sig .tc := ⟨.hbm, 124, rfl⟩
abbrev main_call4_v12 : Ref sig .tc := ⟨.hbm, 125, rfl⟩
abbrev main_call4_v13 : Ref sig .tc := ⟨.hbm, 126, rfl⟩
abbrev main_call4_cst : Ref sig .tc := ⟨.hbm, 127, rfl⟩
abbrev main_call4_v14 : Ref sig .tc := ⟨.hbm, 128, rfl⟩
abbrev main_v41 : Ref sig .tc := ⟨.hbm, 129, rfl⟩
abbrev main_v42 : Ref sig .tc := ⟨.hbm, 130, rfl⟩
abbrev main_v43 : Ref sig .tc := ⟨.hbm, 131, rfl⟩
abbrev main_v44 : Ref sig .tc := ⟨.hbm, 132, rfl⟩

abbrev nD : Nat := 1
abbrev τ : Topo := Topo.v7x

variable {F : FTy → Type} [FloatOps F]

class Facts₀ : Prop where
  transposes_S128x3072_S3072x128_1_0 : S128x3072.Transposes [1, 0] S3072x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  shapeCasts_S16384x128_S16384x8x16 : S16384x128.ShapeCasts S16384x8x16
  bcast_S16384_S16384x1x1_0 : S16384.BroadcastsInDim S16384x1x1 (![0] : Fin 1 → Fin S16384x1x1.rank)
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  h_S_ : 0 < S_.numel
  bcast_S16384x1_S16384x1x16_0_1 : S16384x1.BroadcastsInDim S16384x1x16 (![0, 1] : Fin 2 → Fin S16384x1x16.rank)
  bcast_S_S16384x1x16 : S_.BroadcastsInDim S16384x1x16 (![] : Fin 0 → Fin S16384x1x16.rank)
  shapeCasts_S16384x1x16_S16384x16 : S16384x1x16.ShapeCasts S16384x16
  transposes_S16x3072_S3072x16_1_0 : S16x3072.Transposes [1, 0] S3072x16
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  slices_S16384x16_S16384x15_0_0 : S16384x16.Slices ![0, 0] S16384x15
  slices_S16384x16_S16384x1_0_15 : S16384x16.Slices ![0, 15] S16384x1
  bcast_S_S16384x15 : S_.BroadcastsInDim S16384x15 (![] : Fin 0 → Fin S16384x15.rank)
  concatenates_S16384x15_S16384x15_S16384x30_d1 : Shape.Concatenates [S16384x15, S16384x15] S16384x30 1
  bcast_S_S16384x30 : S_.BroadcastsInDim S16384x30 (![] : Fin 0 → Fin S16384x30.rank)
  transposes_S256x30_S30x256_1_0 : S256x30.Transposes [1, 0] S30x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  shapeCasts_S16384x256_S16384x8x32 : S16384x256.ShapeCasts S16384x8x32
  bcast_S16384x1_S16384x1x32_0_1 : S16384x1.BroadcastsInDim S16384x1x32 (![0, 1] : Fin 2 → Fin S16384x1x32.rank)
  bcast_S_S16384x1x32 : S_.BroadcastsInDim S16384x1x32 (![] : Fin 0 → Fin S16384x1x32.rank)
  shapeCasts_S16384x1x32_S16384x32 : S16384x1x32.ShapeCasts S16384x32
  bcast_S_S16384x32 : S_.BroadcastsInDim S16384x32 (![] : Fin 0 → Fin S16384x32.rank)
  transposes_S8x32_S32x8_1_0 : S8x32.Transposes [1, 0] S32x8
  bcast_S8_S1x8_1 : S8.BroadcastsInDim S1x8 (![1] : Fin 1 → Fin S1x8.rank)
  bcast_S1x8_S16384x8_0_1 : S1x8.BroadcastsInDim S16384x8 (![0, 1] : Fin 2 → Fin S16384x8.rank)
  shapeCasts_S16384x8_S16384x8x1 : S16384x8.ShapeCasts S16384x8x1
  bcast_S16384x1_S16384x1x1_0_1 : S16384x1.BroadcastsInDim S16384x1x1 (![0, 1] : Fin 2 → Fin S16384x1x1.rank)
  shapeCasts_S16384x1x1_S16384x1 : S16384x1x1.ShapeCasts S16384x1
  dot_S16384x3072_S3072x128_S16384x128_1_0_0_1_n_n_wf : DotDims.WF S16384x3072 S3072x128 S16384x128 [1] [0] [0] [1] [] []
  gather_S16384x8x16_S16384x1x1_S16384x1x16_2_1_0_0_1_2_1116_wf : GatherDims.WF S16384x8x16 S16384x1x1 S16384x1x16 [2] [1] [0] [1] [0] 2 ![1, 1, 16]
  dot_S16384x3072_S3072x16_S16384x16_1_0_0_1_n_n_wf : DotDims.WF S16384x3072 S3072x16 S16384x16 [1] [0] [0] [1] [] []
  dot_S16384x30_S30x256_S16384x256_1_0_0_1_n_n_wf : DotDims.WF S16384x30 S30x256 S16384x256 [1] [0] [0] [1] [] []
  gather_S16384x8x32_S16384x1x1_S16384x1x32_2_1_0_0_1_2_1132_wf : GatherDims.WF S16384x8x32 S16384x1x1 S16384x1x32 [2] [1] [0] [1] [0] 2 ![1, 1, 32]
  dot_S16384x32_S32x8_S16384x8_1_0_0_1_n_n_wf : DotDims.WF S16384x32 S32x8 S16384x8 [1] [0] [0] [1] [] []
  gather_S16384x8x1_S16384x1x1_S16384x1x1_2_1_0_0_1_2_111_wf : GatherDims.WF S16384x8x1 S16384x1x1 S16384x1x1 [2] [1] [0] [1] [0] 2 ![1, 1, 1]

variable [Facts₀]

def dot_S16384x3072_S3072x128_S16384x128_1_0_0_1_n_n : DotDims S16384x3072 S3072x128 S16384x128 where
  lhsContracting := [1]
  rhsContracting := [0]
  lhsNonContracting := [0]
  rhsNonContracting := [1]
  lhsBatch := []
  rhsBatch := []
  wf := dot_S16384x3072_S3072x128_S16384x128_1_0_0_1_n_n_wf
def gather_S16384x8x16_S16384x1x1_S16384x1x16_2_1_0_0_1_2_1116 : GatherDims S16384x8x16 S16384x1x1 S16384x1x16 where
  offsetDims := [2]
  collapsedSliceDims := [1]
  operandBatchingDims := [0]
  startIndicesBatchingDims := [0]
  startIndexMap := [1]
  indexVectorDim := 2
  sliceSizes := ![1, 1, 16]
  wf := gather_S16384x8x16_S16384x1x1_S16384x1x16_2_1_0_0_1_2_1116_wf
def dot_S16384x3072_S3072x16_S16384x16_1_0_0_1_n_n : DotDims S16384x3072 S3072x16 S16384x16 where
  lhsContracting := [1]
  rhsContracting := [0]
  lhsNonContracting := [0]
  rhsNonContracting := [1]
  lhsBatch := []
  rhsBatch := []
  wf := dot_S16384x3072_S3072x16_S16384x16_1_0_0_1_n_n_wf
def dot_S16384x30_S30x256_S16384x256_1_0_0_1_n_n : DotDims S16384x30 S30x256 S16384x256 where
  lhsContracting := [1]
  rhsContracting := [0]
  lhsNonContracting := [0]
  rhsNonContracting := [1]
  lhsBatch := []
  rhsBatch := []
  wf := dot_S16384x30_S30x256_S16384x256_1_0_0_1_n_n_wf
def gather_S16384x8x32_S16384x1x1_S16384x1x32_2_1_0_0_1_2_1132 : GatherDims S16384x8x32 S16384x1x1 S16384x1x32 where
  offsetDims := [2]
  collapsedSliceDims := [1]
  operandBatchingDims := [0]
  startIndicesBatchingDims := [0]
  startIndexMap := [1]
  indexVectorDim := 2
  sliceSizes := ![1, 1, 32]
  wf := gather_S16384x8x32_S16384x1x1_S16384x1x32_2_1_0_0_1_2_1132_wf
def dot_S16384x32_S32x8_S16384x8_1_0_0_1_n_n : DotDims S16384x32 S32x8 S16384x8 where
  lhsContracting := [1]
  rhsContracting := [0]
  lhsNonContracting := [0]
  rhsNonContracting := [1]
  lhsBatch := []
  rhsBatch := []
  wf := dot_S16384x32_S32x8_S16384x8_1_0_0_1_n_n_wf
def gather_S16384x8x1_S16384x1x1_S16384x1x1_2_1_0_0_1_2_111 : GatherDims S16384x8x1 S16384x1x1 S16384x1x1 where
  offsetDims := [2]
  collapsedSliceDims := [1]
  operandBatchingDims := [0]
  startIndicesBatchingDims := [0]
  startIndexMap := [1]
  indexVectorDim := 2
  sliceSizes := ![1, 1, 1]
  wf := gather_S16384x8x1_S16384x1x1_S16384x1x1_2_1_0_0_1_2_111_wf

class Facts : Prop extends Facts₀ where

variable [Facts]
-- ==== Proof.LibRowGather.lean ====
/-
  A batched row gather read at an index.

  For an operand of shape `[B, N, C]` and start indices of shape `[B, 1, 1]`, the gather whose dimension numbers batch
  the leading axis, collapse the middle axis (the one the start index names) and keep the trailing axis whole is
  what `take_along_axis` along the middle axis lowers to: result element `(r, 0, j)` is the operand at
  `(r, idx[r, 0, 0] read signed and clamped into [0, N − 1], j)`.
-/
import Idealize.ShloMosaic.PureOps.ShapeOps
import Idealize.ShloMosaic.Lib.ValueIdx

namespace Cert.LibRowGather

open Idealize.ShloMosaic Idealize.ShloMosaic.ValueIdx

variable {α : Type}

/-- Those dimension numbers; their conditions `wf` are decided on a program's literal shapes. -/
abbrev rowTakeDims (B N C : Nat)
    (wf : GatherDims.WF ⟨3, ![B, N, C]⟩ ⟨3, ![B, 1, 1]⟩ ⟨3, ![B, 1, C]⟩ [2] [1] [0] [1] [0] 2 ![1, 1, C]) :
    GatherDims ⟨3, ![B, N, C]⟩ ⟨3, ![B, 1, 1]⟩ ⟨3, ![B, 1, C]⟩ where
  offsetDims := [2]
  collapsedSliceDims := [1]
  operandBatchingDims := [0]
  startIndicesBatchingDims := [0]
  startIndexMap := [1]
  indexVectorDim := 2
  sliceSizes := ![1, 1, C]
  wf := wf

/-- THE GATHER READ AT `(r, 0, j)`: row `r` of the operand, at the row's start index clamped, column `j`. -/
theorem gather_rowTake_apply {B N C w : Nat} (hN : 0 < N)
    (wf : GatherDims.WF ⟨3, ![B, N, C]⟩ ⟨3, ![B, 1, 1]⟩ ⟨3, ![B, 1, C]⟩ [2] [1] [0] [1] [0] 2 ![1, 1, C])
    (x : (⟨3, ![B, N, C]⟩ : Shape).Idx → α) (idx : IVec ⟨3, ![B, 1, 1]⟩ w) (r : Fin B) (u : Fin 1) (j : Fin C) :
    Host.gather (rowTakeDims B N C wf) x idx (ix3 r u j)
      = x (ix3 r ⟨min (idx (ix3 r (0 : Fin 1) (0 : Fin 1))).toInt.toNat (N - 1), by omega⟩ j) := by
  -- the gather reads the operand at the operand index; compare the two indices axis by axis
  obtain rfl : u = 0 := Subsingleton.elim _ _
  have n10 : (1 : Fin 3) ∉ ([0] : List (Fin 3)) := by decide
  have n20 : (2 : Fin 3) ∉ ([0] : List (Fin 3)) := by decide
  have n21 : (2 : Fin 3) ∉ ([1] : List (Fin 3)) := by decide
  unfold Host.gather
  congr 1
  funext a
  refine Fin.ext ?_
  match a with
  | ⟨0, _⟩ =>
    -- the batching axis: no start, no offset; the batch coordinate is the result's coordinate on its leading axis
    show (rowTakeDims B N C wf).start (ix3 r 0 j) idx 0 + (rowTakeDims B N C wf).batchCoord (ix3 r 0 j) 0
      + (rowTakeDims B N C wf).offCoord (ix3 r 0 j) 0 = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ (rowTakeDims B N C wf).operandBatchingDims from List.mem_singleton.mpr rfl)]
    rfl
  | ⟨1, _⟩ =>
    -- the axis the start index names: collapsed and not batching, so only the clamped start, read at [r, 0, 0]
    show (rowTakeDims B N C wf).start (ix3 r 0 j) idx 1 + (rowTakeDims B N C wf).batchCoord (ix3 r 0 j) 1
      + (rowTakeDims B N C wf).offCoord (ix3 r 0 j) 1 = min (idx (ix3 r (0 : Fin 1) (0 : Fin 1))).toInt.toNat (N - 1)
    rw [GatherDims.batchCoord_eq_zero _ _ _ n10,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowTakeDims B N C wf).startIndexMap from List.mem_singleton.mpr rfl)]
    have hsi : (rowTakeDims B N C wf).siIdx (ix3 r 0 j) ⟨List.idxOf (1 : Fin 3) (rowTakeDims B N C wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl
  | ⟨2, _⟩ =>
    -- the offset axis: not in the start index map and not batching, so only the result's trailing coordinate
    show (rowTakeDims B N C wf).start (ix3 r 0 j) idx 2 + (rowTakeDims B N C wf).batchCoord (ix3 r 0 j) 2
      + (rowTakeDims B N C wf).offCoord (ix3 r 0 j) 2 = j.val
    unfold GatherDims.start
    rw [dif_neg (show (2 : Fin 3) ∉ (rowTakeDims B N C wf).startIndexMap from n21),
      GatherDims.batchCoord_eq_zero _ _ _ n20]
    simp only [Nat.zero_add, Nat.add_zero]
    unfold GatherDims.offCoord
    rw [dif_pos ((GatherDims.mem_sKept _ _).mpr ⟨n21, n20⟩)]
    rfl

end Cert.LibRowGather
-- ==== Proof.LibHostRead.lean ====
/-
  Host operations read at an index.

  A `stablehlo.reduce` by `and` from 1 is 1 where every operand entry reducing into the result is 1; over a unit last
  axis that is one entry. A broadcast of an `[n, p]` array along a new last axis reads the operand at `(r, s)`. A reshape
  of `[n, a, b]` to `[n, a * b]` reads, at `(r, q)`, the operand at `(r, q / b, q % b)`.
-/
import Idealize.ShloMosaic.PureOps.Reduce
import Idealize.ShloMosaic.Lib.ReduceAll
import Idealize.ShloMosaic.Lib.ValueIdx
import Idealize.ShloMosaic.Lib.Pipeline.Value

namespace Cert.LibHostRead

open Idealize.ShloMosaic Idealize.ShloMosaic.ValueIdx

/-- A left fold by `and` from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    have ha : f a = 1#1 := h a (List.mem_cons_self ..)
    have e : IntOp.andi 1#1 (f a) = 1#1 := by rw [ha]; decide
    rw [List.foldl_cons, e]
    exact foldl_andi_one f l (fun n hn => h n (List.mem_cons_of_mem _ hn))

/-- A `stablehlo.reduce` by `and` from 1 is 1 at `j` when every operand entry that reduces into `j` is 1. -/
theorem reduce_andi_of_forall {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i : s.Idx, h.drop i = j → x i = 1#1) : Host.reduce IntOp.andi x init h hu j = 1#1 := by
  rw [Host.reduce_eq_foldl, hinit]
  refine foldl_andi_one x _ (fun i hi => ?_)
  rw [List.mem_filter] at hi
  exact hx i (by simpa using hi.2)

/-- Over a unit last axis the entries reducing into `(r, s)` are the one at `(r, s, 0)`. -/
theorem drop_unit_last {n p : Nat} (h : (⟨3, ![n, p, 1]⟩ : Shape).ReducesTo [2] ⟨2, ![n, p]⟩)
    (i : (⟨3, ![n, p, 1]⟩ : Shape).Idx) (r : Fin n) (s : Fin p) (hi : h.drop i = ix2 r s) : i = ix3 r s (0 : Fin 1) := by
  have h0 : (h.drop i 0).val = r.val := congrArg (fun k => (k 0).val) hi
  have h1 : (h.drop i 1).val = s.val := congrArg (fun k => (k 1).val) hi
  refine (eq_ix3 i).trans ?_
  have e0 : i 0 = r := Fin.ext h0
  have e1 : i 1 = s := Fin.ext h1
  have h2 : (i 2).val < 1 := (i 2).isLt
  have e2 : i 2 = (0 : Fin 1) := Fin.ext (by show (i 2).val = 0; omega)
  rw [e0, e1, e2]
  exact rfl

/-- The reduce by `and` from 1 over a unit last axis is 1 at `(r, s)` when the entry at `(r, s, 0)` is. -/
theorem reduce_andi_unit_last {n p : Nat} {u : Shape} (x : (⟨3, ![n, p, 1]⟩ : Shape).Idx → BitVec 1) (init : u.Idx → BitVec 1)
    (h : (⟨3, ![n, p, 1]⟩ : Shape).ReducesTo [2] ⟨2, ![n, p]⟩) (hu : 0 < u.numel) (r : Fin n) (s : Fin p)
    (hinit : init (Shape.Idx.first hu) = 1#1) (hx : x (ix3 r s (0 : Fin 1)) = 1#1) :
    Host.reduce IntOp.andi x init h hu (ix2 r s) = 1#1 :=
  reduce_andi_of_forall x init h hu _ hinit (fun i hi => by rw [drop_unit_last h i r s hi]; exact hx)

/-- An `[n, p]` array broadcast along a new last axis reads, at `(r, s, j)`, the operand at `(r, s)`. -/
theorem bcast_pairs_apply {α : Type} {n p c : Nat} (h : (⟨2, ![n, p]⟩ : Shape).BroadcastsInDim ⟨3, ![n, p, c]⟩ ![0, 1])
    (x : (⟨2, ![n, p]⟩ : Shape).Idx → α) (r : Fin n) (s : Fin p) (j : Fin c) :
    broadcastInDim ⟨3, ![n, p, c]⟩ ![0, 1] h x (ix3 r s j) = x (ix2 r s) := by
  refine broadcastInDim_apply _ h x _ _ (fun a => ?_)
  match a with
  | ⟨0, _⟩ =>
    show r.val = if n = 1 then 0 else r.val
    split
    · have := r.isLt; omega
    · rfl
  | ⟨1, _⟩ =>
    show s.val = if p = 1 then 0 else s.val
    split
    · have := s.isLt; omega
    · rfl

/-- An `[n, a, b]` array reshaped to `[n, a * b]` reads, at `(r, q)`, the operand at `(r, q / b, q % b)`. -/
theorem reshape_pairs_apply {α : Type} {n a b c : Nat} (hc : c = a * b) (hb : 0 < b)
    (x : (⟨3, ![n, a, b]⟩ : Shape).Idx → α) (h : (⟨3, ![n, a, b]⟩ : Shape).ShapeCasts ⟨2, ![n, c]⟩) (r : Fin n) (q : Fin c) :
    shapeCast ⟨2, ![n, c]⟩ x h (ix2 r q)
      = x (ix3 r ⟨q.val / b, by subst hc; exact Nat.div_lt_of_lt_mul (lt_of_lt_of_eq q.isLt (Nat.mul_comm a b))⟩ ⟨q.val % b, Nat.mod_lt _ hb⟩) := by
  subst hc
  refine shapeCast_apply x h _ _ ?_
  rw [Shape.rowMajor_val_three, Shape.rowMajor_val_two]
  show (r.val * a + q.val / b) * b + q.val % b = r.val * (a * b) + q.val
  rw [Nat.add_mul, Nat.mul_assoc, Nat.add_assoc, Nat.div_add_mod']

end Cert.LibHostRead
-- ==== Proof.RefTake.lean ====
/-
  The reference's three bucket selections read at an index. Each is `take_along_axis` along the bucket axis of a
  `[16384, 8, F]` view of a `[16384, 8 F]` array, at the row's index word: a negative word is wrapped by 8, a word
  outside [0, 7] after that is answered by a fill value, and the gather clamps. For a word below 8 none of the three
  acts: the selection reads column `F b + j` of row `r`, `b` the word read as a number.
-/
import proofs.«422395_j67645734912396_3_alg».proof.Proof.RefRead
import proofs.«422395_j67645734912396_3_alg».proof.Proof.LibRowGather
import proofs.«422395_j67645734912396_3_alg».proof.Proof.LibHostRead
import Idealize.ShloMosaic.Lib.ValueIdx
import Idealize.ShloMosaic.Lib.Pipeline.Value

noncomputable section

namespace Cert.RefTake

open Idealize.ShloMosaic Idealize.ShloMosaic.TcCoe Idealize.ShloMosaic.ValueIdx Cert.ReferenceIdeal Cert.ReferenceIdeal.Read

variable (x0 : (⟨S16384x3072, .f32⟩ : BufTy).Contents (Elt Ideal)) (x1 : (⟨S16384, .i32⟩ : BufTy).Contents (Elt Ideal)) (x2 : (⟨S128x3072, .f32⟩ : BufTy).Contents (Elt Ideal)) (x3 : (⟨S128, .f32⟩ : BufTy).Contents (Elt Ideal))
  (x4 : (⟨S16x3072, .f32⟩ : BufTy).Contents (Elt Ideal)) (x5 : (⟨S16, .f32⟩ : BufTy).Contents (Elt Ideal)) (x6 : (⟨S256x30, .f32⟩ : BufTy).Contents (Elt Ideal)) (x7 : (⟨S256, .f32⟩ : BufTy).Contents (Elt Ideal))
  (x8 : (⟨S8x32, .f32⟩ : BufTy).Contents (Elt Ideal)) (x9 : (⟨S8, .f32⟩ : BufTy).Contents (Elt Ideal))

/-! ## Words below 8

A 32-bit word whose unsigned reading is below 8 reads the same signed; so it is not negative, it is at least 0 and at
most 7, and clamping it into [0, 7] leaves it alone. -/

private theorem bit_eq_zero {b : BitVec 1} (h : ¬ b = 1#1) : b = 0#1 := by revert b; decide

private theorem toInt_small (w : BitVec 32) (hw : w.toNat < 8) : w.toInt = w.toNat := by
  rw [BitVec.toInt_eq_toNat_cond, if_pos (by omega)]

private theorem slt_zero (w : BitVec 32) (hw : w.toNat < 8) : IntOp.cmpi .slt w 0#32 = 0#1 := by
  refine bit_eq_zero fun e => ?_
  rw [IntOp.cmpi_slt, toInt_small w hw, show (0#32 : BitVec 32).toInt = 0 from by decide] at e
  omega

private theorem sge_zero (w : BitVec 32) (hw : w.toNat < 8) : IntOp.cmpi .sge w 0#32 = 1#1 := by
  rw [IntOp.cmpi_sge, toInt_small w hw, show (0#32 : BitVec 32).toInt = 0 from by decide]
  omega

private theorem sle_seven (w : BitVec 32) (hw : w.toNat < 8) : IntOp.cmpi .sle w 7#32 = 1#1 := by
  rw [IntOp.cmpi_sle, toInt_small w hw, show (7#32 : BitVec 32).toInt = 7 from by decide]
  omega

private theorem clamp_small (w : BitVec 32) (hw : w.toNat < 8) : min w.toInt.toNat (8 - 1) = w.toNat := by
  rw [toInt_small w hw, Int.toNat_natCast]
  omega

/-! ## One selection

The last two operations of `take_along_axis`, read at `(r, 0, j)`: where the mask bit is 1 the select reads the gather, and
the gather reads row `r` of the `[n, 8, C]` operand at the bucket its start index names, which for a word below 8 is
the word itself. -/

private theorem select_gather_row {α : Type} {n C : Nat}
    (wf : GatherDims.WF ⟨3, ![n, 8, C]⟩ ⟨3, ![n, 1, 1]⟩ ⟨3, ![n, 1, C]⟩ [2] [1] [0] [1] [0] 2 ![1, 1, C])
    (y : (⟨3, ![n, 8, C]⟩ : Shape).Idx → α) (v : IVec ⟨3, ![n, 1, 1]⟩ 32) (m : IVec ⟨3, ![n, 1, C]⟩ 1)
    (f : (⟨3, ![n, 1, C]⟩ : Shape).Idx → α) (r : Fin n) (j : Fin C) (w : BitVec 32) (hw : w.toNat < 8)
    (hv : v (ix3 r (0 : Fin 1) (0 : Fin 1)) = w) (hm : m (ix3 r (0 : Fin 1) j) = 1#1) :
    Scalar.select (m (ix3 r (0 : Fin 1) j)) (Host.gather (Cert.LibRowGather.rowTakeDims n 8 C wf) y v (ix3 r (0 : Fin 1) j))
        (f (ix3 r (0 : Fin 1) j)) = y (ix3 r ⟨w.toNat, hw⟩ j) := by
  subst hv
  rw [hm, select_one, Cert.LibRowGather.gather_rowTake_apply (by decide)]
  exact congrArg (fun k => y (ix3 r k j)) (Fin.ext (clamp_small _ hw))

/-! ## The index word and the mask of the first selection

The wrapped index at `(r, 0, 0)` is the row's word (it is not negative, so 8 is not added); both range tests hold of
it, so their conjunction, and-reduced over the unit axis, is 1 at `(r, 0)`. -/

private theorem idx6 (r : Fin 16384) : idx_main_v6 (ix3 r (0 : Fin 1) (0 : Fin 1)) = ix1 r := by
  funext a
  match a with
  | ⟨0, _⟩ => rfl

private theorem v4_at (r : Fin 16384) (h : (x1 (ix1 r)).toNat < 8) :
    val_main_call0_v4 (F := Ideal) x1 (ix3 r (0 : Fin 1) (0 : Fin 1)) = x1 (ix1 r) := by
  rw [val_main_call0_v4_apply, val_main_call0_v1_apply, val_main_v6_apply, idx6, val_main_call0_v0_apply,
    val_main_call0_c_apply, slt_zero _ h, select_zero]

private theorem v10_at (r : Fin 16384) (h : (x1 (ix1 r)).toNat < 8) :
    val_main_call0_v10 (F := Ideal) x1 (ix3 r (0 : Fin 1) (0 : Fin 1)) = 1#1 := by
  rw [val_main_call0_v10_apply, val_main_call0_v6_apply, val_main_call0_v9_apply, v4_at x1 r h, val_main_call0_v5_apply,
    val_main_call0_c_2_apply, val_main_call0_v8_apply, val_main_call0_v7_apply, val_main_call0_c_1_apply, sge_zero _ h,
    sle_seven _ h]
  decide

private theorem v11_at (r : Fin 16384) (h : (x1 (ix1 r)).toNat < 8) :
    val_main_call0_v11 (F := Ideal) x1 (ix2 r (0 : Fin 1)) = 1#1 := by
  unfold val_main_call0_v11
  exact Cert.LibHostRead.reduce_andi_unit_last _ _ _ _ r 0 rfl (v10_at x1 r h)

/-! The second and third selections wrap and test the same index column by the same operations: their wrapped index
and their reduced mask are the first selection's, by unfolding. -/

private theorem v4_call2 : val_main_call2_v4 (F := Ideal) x1 = val_main_call0_v4 (F := Ideal) x1 := rfl
private theorem v11_call2 : val_main_call2_v11 (F := Ideal) x1 = val_main_call0_v11 (F := Ideal) x1 := rfl
private theorem v4_call4 : val_main_call4_v4 (F := Ideal) x1 = val_main_call0_v4 (F := Ideal) x1 := rfl
private theorem v11_call4 : val_main_call4_v11 (F := Ideal) x1 = val_main_call0_v11 (F := Ideal) x1 := rfl

/-! The mask broadcast along the kept columns reads the reduced mask at `(r, 0)`. -/

private theorem mask1 (r : Fin 16384) (h : (x1 (ix1 r)).toNat < 8) (j : Fin 16) :
    val_main_call0_v13 (F := Ideal) x1 (ix3 r (0 : Fin 1) j) = 1#1 := by
  rw [val_main_call0_v13_apply, show idx_main_call0_v13 (ix3 r (0 : Fin 1) j) = ix2 r (0 : Fin 1) from by
    funext a
    match a with
    | ⟨0, _⟩ => rfl
    | ⟨1, _⟩ => rfl]
  exact v11_at x1 r h

private theorem mask2 (r : Fin 16384) (h : (x1 (ix1 r)).toNat < 8) (j : Fin 32) :
    val_main_call2_v13 (F := Ideal) x1 (ix3 r (0 : Fin 1) j) = 1#1 := by
  rw [val_main_call2_v13_apply, show idx_main_call2_v13 (ix3 r (0 : Fin 1) j) = ix2 r (0 : Fin 1) from by
    funext a
    match a with
    | ⟨0, _⟩ => rfl
    | ⟨1, _⟩ => rfl, v11_call2]
  exact v11_at x1 r h

private theorem mask3 (r : Fin 16384) (h : (x1 (ix1 r)).toNat < 8) :
    val_main_call4_v13 (F := Ideal) x1 (ix3 r (0 : Fin 1) (0 : Fin 1)) = 1#1 := by
  rw [val_main_call4_v13_apply, show idx_main_call4_v13 (ix3 r (0 : Fin 1) (0 : Fin 1)) = ix2 r (0 : Fin 1) from by
    funext a
    match a with
    | ⟨0, _⟩ => rfl
    | ⟨1, _⟩ => rfl, v11_call4]
  exact v11_at x1 r h

/-! The printed dimension numbers of the three gathers are the batched row gather's. -/

private theorem rec1 : gather_S16384x8x16_S16384x1x1_S16384x1x16_2_1_0_0_1_2_1116
    = Cert.LibRowGather.rowTakeDims 16384 8 16 Facts₀.gather_S16384x8x16_S16384x1x1_S16384x1x16_2_1_0_0_1_2_1116_wf := rfl
private theorem rec2 : gather_S16384x8x32_S16384x1x1_S16384x1x32_2_1_0_0_1_2_1132
    = Cert.LibRowGather.rowTakeDims 16384 8 32 Facts₀.gather_S16384x8x32_S16384x1x1_S16384x1x32_2_1_0_0_1_2_1132_wf := rfl
private theorem rec3 : gather_S16384x8x1_S16384x1x1_S16384x1x1_2_1_0_0_1_2_111
    = Cert.LibRowGather.rowTakeDims 16384 8 1 Facts₀.gather_S16384x8x1_S16384x1x1_S16384x1x1_2_1_0_0_1_2_111_wf := rfl

/-- Layer 1's kept outputs: column `16 b + j` of the 128. -/
theorem take1 (r : Fin 16384) (h : (x1 (ix1 r)).toNat < 8) (j : Fin 16) :
    val_main_v8 (F := Ideal) x0 x1 x2 x3 (ix2 r j)
      = val_main_v4 (F := Ideal) x0 x2 x3 (ix2 r ⟨(x1 (ix1 r)).toNat * 16 + j.val, by have := j.isLt; omega⟩) := by
  -- the reshape reads the select at (r, 0, j); the select reads the gather; the gather reads bucket b of row r
  rw [val_main_v8_apply, show idx_main_v8 (ix2 r j) = ix3 r (0 : Fin 1) j from by
    funext a
    match a with
    | ⟨0, _⟩ => exact Fin.ext (by show (r.val * 16 + j.val) / 16 = r.val; have := j.isLt; omega)
    | ⟨1, _⟩ => rfl
    | ⟨2, _⟩ => exact Fin.ext (by show (r.val * 16 + j.val) % 16 = j.val; have := j.isLt; omega), val_main_v7_apply]
  unfold val_main_call0_v12
  rw [rec1, select_gather_row _ (val_main_v5 (F := Ideal) x0 x2 x3) (val_main_call0_v4 (F := Ideal) x1)
    (val_main_call0_v13 (F := Ideal) x1) (val_main_call0_v14 (F := Ideal)) r j (x1 (ix1 r)) h (v4_at x1 r h) (mask1 x1 r h j),
    val_main_v5_apply]
  -- entry (r, b, j) of the [16384, 8, 16] view is entry (r, 16 b + j) of the [16384, 128] array
  congr 1
  funext a
  match a with
  | ⟨0, _⟩ =>
    exact Fin.ext (by show ((r.val * 8 + (x1 (ix1 r)).toNat) * 16 + j.val) / 128 = r.val; have := j.isLt; omega)
  | ⟨1, _⟩ =>
    exact Fin.ext (by
      show ((r.val * 8 + (x1 (ix1 r)).toNat) * 16 + j.val) % 128 = (x1 (ix1 r)).toNat * 16 + j.val
      have := j.isLt; omega)

/-- Layer 2's kept outputs: column `32 b + j` of the 256. -/
theorem take2 (r : Fin 16384) (h : (x1 (ix1 r)).toNat < 8) (j : Fin 32) :
    val_main_v32 (F := Ideal) x0 x1 x2 x3 x4 x5 x6 x7 (ix2 r j)
      = val_main_v28 (F := Ideal) x0 x1 x2 x3 x4 x5 x6 x7 (ix2 r ⟨(x1 (ix1 r)).toNat * 32 + j.val, by have := j.isLt; omega⟩) := by
  -- the reshape reads the select at (r, 0, j); the select reads the gather; the gather reads bucket b of row r
  rw [val_main_v32_apply, show idx_main_v32 (ix2 r j) = ix3 r (0 : Fin 1) j from by
    funext a
    match a with
    | ⟨0, _⟩ => exact Fin.ext (by show (r.val * 32 + j.val) / 32 = r.val; have := j.isLt; omega)
    | ⟨1, _⟩ => rfl
    | ⟨2, _⟩ => exact Fin.ext (by show (r.val * 32 + j.val) % 32 = j.val; have := j.isLt; omega), val_main_v31_apply]
  unfold val_main_call2_v12
  rw [rec2, select_gather_row _ (val_main_v29 (F := Ideal) x0 x1 x2 x3 x4 x5 x6 x7) (val_main_call2_v4 (F := Ideal) x1)
    (val_main_call2_v13 (F := Ideal) x1) (val_main_call2_v14 (F := Ideal)) r j (x1 (ix1 r)) h
    ((congrFun (v4_call2 x1) _).trans (v4_at x1 r h)) (mask2 x1 r h j), val_main_v29_apply]
  -- entry (r, b, j) of the [16384, 8, 32] view is entry (r, 32 b + j) of the [16384, 256] array
  congr 1
  funext a
  match a with
  | ⟨0, _⟩ =>
    exact Fin.ext (by show ((r.val * 8 + (x1 (ix1 r)).toNat) * 32 + j.val) / 256 = r.val; have := j.isLt; omega)
  | ⟨1, _⟩ =>
    exact Fin.ext (by
      show ((r.val * 8 + (x1 (ix1 r)).toNat) * 32 + j.val) % 256 = (x1 (ix1 r)).toNat * 32 + j.val
      have := j.isLt; omega)

/-- The kept score: column `b` of the 8. -/
theorem take3 (r : Fin 16384) (h : (x1 (ix1 r)).toNat < 8) :
    val_main_v42 (F := Ideal) x0 x1 x2 x3 x4 x5 x6 x7 x8 x9 (ix2 r (0 : Fin 1))
      = val_main_v38 (F := Ideal) x0 x1 x2 x3 x4 x5 x6 x7 x8 x9 (ix2 r ⟨(x1 (ix1 r)).toNat, h⟩) := by
  -- the reshape reads the select at (r, 0, 0); the select reads the gather; the gather reads bucket b of row r
  rw [val_main_v42_apply, show idx_main_v42 (ix2 r (0 : Fin 1)) = ix3 r (0 : Fin 1) (0 : Fin 1) from by
    funext a
    match a with
    | ⟨0, _⟩ => exact Fin.ext (by show (r.val * 1 + 0) / 1 = r.val; omega)
    | ⟨1, _⟩ => rfl
    | ⟨2, _⟩ => rfl, val_main_v41_apply]
  unfold val_main_call4_v12
  rw [rec3, select_gather_row _ (val_main_v39 (F := Ideal) x0 x1 x2 x3 x4 x5 x6 x7 x8 x9) (val_main_call4_v4 (F := Ideal) x1)
    (val_main_call4_v13 (F := Ideal) x1) (val_main_call4_v14 (F := Ideal)) r (0 : Fin 1) (x1 (ix1 r)) h
    ((congrFun (v4_call4 x1) _).trans (v4_at x1 r h)) (mask3 x1 r h), val_main_v39_apply]
  -- entry (r, b, 0) of the [16384, 8, 1] view is entry (r, b) of the [16384, 8] array
  congr 1
  funext a
  match a with
  | ⟨0, _⟩ =>
    exact Fin.ext (by show ((r.val * 8 + (x1 (ix1 r)).toNat) * 1 + 0) / 8 = r.val; omega)
  | ⟨1, _⟩ =>
    exact Fin.ext (by show ((r.val * 8 + (x1 (ix1 r)).toNat) * 1 + 0) % 8 = (x1 (ix1 r)).toNat; omega)

end Cert.RefTake

end
-- ==== Proof.Spec.lean ====
/-
  What one row of the bucketed network computes, on the extended reals.

  A row `a` of 3072 features and its bucket `c` (one of 8). Layer 1 is a dense map to 128 = 8 × 16 outputs, of which
  the 16 of bucket `c` are kept, plus a second dense map to 16 outputs shared by all buckets. The first 15 of the
  two are added, squared-and-scaled beside themselves, and clipped to [0, 1]: 30 features. Layer 2 is a dense
  map to 256 = 8 × 32 outputs, of which the 32 of bucket `c` are kept and clipped. The output layer is a dense map
  to 8 scores, of which the one of bucket `c` is kept; the row's result adds the sixteenth output of the shared map
  and the sixteenth kept output of layer 1.
-/
import Idealize.ShloMosaic.PureOps.Ideal
import Idealize.ShloMosaic.Lib.ValueIdx

noncomputable section

namespace Cert.Spec

open Idealize.ShloMosaic Idealize.ShloMosaic.ValueIdx
open scoped BigOperators

/-- The three float literals both programs carry, kept as their words: 0, 1 and 127/128. -/
def zero : EReal := Ideal.ofBits .f32 0x00000000#32
def one : EReal := Ideal.ofBits .f32 0x3F800000#32
def scale : EReal := Ideal.ofBits .f32 0x3F7E0000#32

/-- The clip to [0, 1]: first the maximum with 0, then the minimum with 1. -/
def clip01 (v : EReal) : EReal := min one (max zero v)

/-- A dense map: output `n` is the inner product of the input with row `n` of the weights, plus bias `n`. -/
def dense {N K : Nat} (a : Fin K → EReal) (w : Fin N → Fin K → EReal) (b : Fin N → EReal) (n : Fin N) : EReal :=
  (∑ k : Fin K, a k * w n k) + b n

section Row

variable (a : Fin 3072 → EReal) (c : Fin 8)
  (w1 : Fin 128 → Fin 3072 → EReal) (b1 : Fin 128 → EReal) (wf : Fin 16 → Fin 3072 → EReal) (bf : Fin 16 → EReal)
  (w2 : Fin 256 → Fin 30 → EReal) (b2 : Fin 256 → EReal) (wo : Fin 8 → Fin 32 → EReal) (bo : Fin 8 → EReal)

/-- Layer 1's output `j` of bucket `c`: output `16 c + j` of the 128. -/
def sel1 (j : Fin 16) : EReal := dense a w1 b1 ⟨c.val * 16 + j.val, by have := c.isLt; have := j.isLt; omega⟩

/-- The shared map's output `j`. -/
def fact (j : Fin 16) : EReal := dense a wf bf j

/-- The sum of the two, on the first 15 outputs. -/
def hidden (j : Fin 15) : EReal :=
  sel1 a c w1 b1 ⟨j.val, by have := j.isLt; omega⟩ + fact a wf bf ⟨j.val, by have := j.isLt; omega⟩

/-- The 30 features of layer 2: the scaled squares, then the sums themselves, all clipped. -/
def feat (q : Fin 30) : EReal :=
  clip01 (if h : q.val < 15 then hidden a c w1 b1 wf bf ⟨q.val, h⟩ * hidden a c w1 b1 wf bf ⟨q.val, h⟩ * scale
    else hidden a c w1 b1 wf bf ⟨q.val - 15, by have := q.isLt; omega⟩)

/-- Layer 2's output `j` of bucket `c`, clipped: output `32 c + j` of the 256. -/
def sel2 (j : Fin 32) : EReal :=
  clip01 (dense (feat a c w1 b1 wf bf) w2 b2 ⟨c.val * 32 + j.val, by have := c.isLt; have := j.isLt; omega⟩)

/-- The output layer's score `n`. -/
def score (n : Fin 8) : EReal := dense (sel2 a c w1 b1 wf bf w2 b2) wo bo n

/-- The row's result. -/
def rowOut : EReal :=
  score a c w1 b1 wf bf w2 b2 wo bo c + fact a wf bf ⟨15, by omega⟩ + sel1 a c w1 b1 ⟨15, by omega⟩

end Row

/-- Keeping bucket `c` of eight values by a one-hot weighting, summed left to right from 0. -/
theorem onehot_fold (c : Fin 8) (v : Fin 8 → EReal) :
    ((((((((0 : EReal) + (if c = 0 then 1 else 0) * v 0) + (if c = 1 then 1 else 0) * v 1) + (if c = 2 then 1 else 0) * v 2)
      + (if c = 3 then 1 else 0) * v 3) + (if c = 4 then 1 else 0) * v 4) + (if c = 5 then 1 else 0) * v 5)
      + (if c = 6 then 1 else 0) * v 6) + (if c = 7 then 1 else 0) * v 7 = v c := by
  fin_cases c <;> simp

/-- The same as a sum over the eight. -/
theorem onehot_sum (c : Fin 8) (v : Fin 8 → EReal) :
    ∑ n : Fin 8, (if c = n then (1 : EReal) else 0) * v n = v c := by
  rw [Finset.sum_eq_single c]
  · simp
  · intro n _ hn; rw [if_neg (Ne.symm hn), zero_mul]
  · intro h; exact absurd (Finset.mem_univ c) h

end Cert.Spec

end
-- ==== Proof.SpecAt.lean ====
/-
  The network's result over the whole argument arrays: row `r` of the result is `Cert.Spec.rowOut` of row `r` of the
  features, the bucket the row's index word names, and the weight arrays read row-major. Where an index word is not
  below 8 the row is given the value 0 (the precondition excludes it).
-/
import proofs.«422395_j67645734912396_3_alg».proof.Proof.Spec

noncomputable section

namespace Cert.Spec

open Idealize.ShloMosaic Idealize.ShloMosaic.ValueIdx

abbrev Mat (a b : Nat) : Type := (⟨2, ![a, b]⟩ : Shape).Idx → EReal
abbrev Col (a : Nat) : Type := (⟨1, ![a]⟩ : Shape).Idx → EReal
abbrev Words (a : Nat) : Type := (⟨1, ![a]⟩ : Shape).Idx → BitVec 32

section Arrays

variable (a0 : Mat 16384 3072) (a1 : Words 16384) (a2 : Mat 128 3072) (a3 : Col 128) (a4 : Mat 16 3072) (a5 : Col 16)
  (a6 : Mat 256 30) (a7 : Col 256) (a8 : Mat 8 32) (a9 : Col 8)

/-- Row `r` of the result. -/
def rowAt (r : Fin 16384) : EReal :=
  if h : (a1 (ix1 r)).toNat < 8 then
    rowOut (fun k => a0 (ix2 r k)) ⟨(a1 (ix1 r)).toNat, h⟩ (fun n k => a2 (ix2 n k)) (fun n => a3 (ix1 n))
      (fun j k => a4 (ix2 j k)) (fun j => a5 (ix1 j)) (fun n q => a6 (ix2 n q)) (fun n => a7 (ix1 n))
      (fun n j => a8 (ix2 n j)) (fun n => a9 (ix1 n))
  else 0

theorem rowAt_of_lt (r : Fin 16384) (h : (a1 (ix1 r)).toNat < 8) :
    rowAt a0 a1 a2 a3 a4 a5 a6 a7 a8 a9 r
      = rowOut (fun k => a0 (ix2 r k)) ⟨(a1 (ix1 r)).toNat, h⟩ (fun n k => a2 (ix2 n k)) (fun n => a3 (ix1 n))
          (fun j k => a4 (ix2 j k)) (fun j => a5 (ix1 j)) (fun n q => a6 (ix2 n q)) (fun n => a7 (ix1 n))
          (fun n j => a8 (ix2 n j)) (fun n => a9 (ix1 n)) := dif_pos h

/-- The result as a column of 16384 entries … -/
def column : Col 16384 := fun i => rowAt a0 a1 a2 a3 a4 a5 a6 a7 a8 a9 (i 0)

/-- … and as the 16384 × 1 array both programs return. -/
def result : Mat 16384 1 := fun i => rowAt a0 a1 a2 a3 a4 a5 a6 a7 a8 a9 (i 0)

end Arrays

end Cert.Spec

end
-- ==== Proof.RefRow.lean ====
/-
  One row of the reference, on the extended reals: the reference's result at row `r` is `Cert.Spec.rowAt` of the
  argument arrays at `r`. Each product is the plain sum over the contracted axis, each bias is read at its column,
  the three bucket selections read the row's own bucket (`Cert.RefTake`), and the clip is the same two operations.
-/
import proofs.«422395_j67645734912396_3_alg».proof.Proof.RefRead
import proofs.«422395_j67645734912396_3_alg».proof.Proof.RefTake
import proofs.«422395_j67645734912396_3_alg».proof.Proof.SpecAt
import Idealize.ShloMosaic.Lib.ValueIdx
import Idealize.ShloMosaic.Lib.Pipeline.Value
import Idealize.ShloMosaic.PureOps.Ideal.Laws

noncomputable section

namespace Cert.RefRow

open Idealize.ShloMosaic Idealize.ShloMosaic.TcCoe Idealize.ShloMosaic.ValueIdx Cert.ReferenceIdeal Cert.ReferenceIdeal.Read
open scoped BigOperators

variable (x0 : (⟨S16384x3072, .f32⟩ : BufTy).Contents (Elt Ideal)) (x1 : (⟨S16384, .i32⟩ : BufTy).Contents (Elt Ideal)) (x2 : (⟨S128x3072, .f32⟩ : BufTy).Contents (Elt Ideal)) (x3 : (⟨S128, .f32⟩ : BufTy).Contents (Elt Ideal))
  (x4 : (⟨S16x3072, .f32⟩ : BufTy).Contents (Elt Ideal)) (x5 : (⟨S16, .f32⟩ : BufTy).Contents (Elt Ideal)) (x6 : (⟨S256x30, .f32⟩ : BufTy).Contents (Elt Ideal)) (x7 : (⟨S256, .f32⟩ : BufTy).Contents (Elt Ideal))
  (x8 : (⟨S8x32, .f32⟩ : BufTy).Contents (Elt Ideal)) (x9 : (⟨S8, .f32⟩ : BufTy).Contents (Elt Ideal))

/-- Layer 1 of the reference at an index: the inner product of the row with a row of the weights, plus the bias. -/
private theorem v4_dense (r : Fin 16384) (n : Fin 128) :
    val_main_v4 (F := Ideal) x0 x2 x3 (ix2 r n)
      = Cert.Spec.dense (fun k => x0 (ix2 r k)) (fun n k => x2 (ix2 n k)) (fun n => x3 (ix1 n)) n := by
  rw [val_main_v4_apply, val_main_v1_apply, val_main_v3_apply, val_main_v2_apply]
  unfold Cert.Spec.dense
  show (∑ k : Fin 3072, x0 (lidx_main_v1 (ix2 r n) k) * val_main_v0 (F := Ideal) x2 (ridx_main_v1 (ix2 r n) k))
      + x3 (idx_main_v2 (idx_main_v3 (ix2 r n))) = _
  refine congrArg₂ (· + ·) (Finset.sum_congr rfl fun k _ => ?_) ?_
  · rw [val_main_v0_apply]
    have e1 : lidx_main_v1 (ix2 r n) k = ix2 r k := funext fun a => by
      match a with
      | ⟨0, _⟩ => rfl
      | ⟨1, _⟩ => rfl
    have e2 : idx_main_v0 (ridx_main_v1 (ix2 r n) k) = ix2 n k := funext fun a => by
      match a with
      | ⟨0, _⟩ => rfl
      | ⟨1, _⟩ => rfl
    rw [e1, e2]
  · exact congrArg x3 (funext fun a => by
      match a with
      | ⟨0, _⟩ => rfl)

/-- The shared map of the reference at an index. -/
private theorem v13_dense (r : Fin 16384) (n : Fin 16) :
    val_main_v13 (F := Ideal) x0 x4 x5 (ix2 r n)
      = Cert.Spec.dense (fun k => x0 (ix2 r k)) (fun j k => x4 (ix2 j k)) (fun j => x5 (ix1 j)) n := by
  rw [val_main_v13_apply, val_main_v10_apply, val_main_v12_apply, val_main_v11_apply]
  unfold Cert.Spec.dense
  show (∑ k : Fin 3072, x0 (lidx_main_v10 (ix2 r n) k) * val_main_v9 (F := Ideal) x4 (ridx_main_v10 (ix2 r n) k))
      + x5 (idx_main_v11 (idx_main_v12 (ix2 r n))) = _
  refine congrArg₂ (· + ·) (Finset.sum_congr rfl fun k _ => ?_) ?_
  · rw [val_main_v9_apply]
    have e1 : lidx_main_v10 (ix2 r n) k = ix2 r k := funext fun a => by
      match a with
      | ⟨0, _⟩ => rfl
      | ⟨1, _⟩ => rfl
    have e2 : idx_main_v9 (ridx_main_v10 (ix2 r n) k) = ix2 n k := funext fun a => by
      match a with
      | ⟨0, _⟩ => rfl
      | ⟨1, _⟩ => rfl
    rw [e1, e2]
  · exact congrArg x5 (funext fun a => by
      match a with
      | ⟨0, _⟩ => rfl)

/-- The kept outputs of layer 1: those of the row's own bucket. -/
private theorem v8_sel1 (r : Fin 16384) (h : (x1 (ix1 r)).toNat < 8) (j : Fin 16) :
    val_main_v8 (F := Ideal) x0 x1 x2 x3 (ix2 r j) = Cert.Spec.sel1 (fun k => x0 (ix2 r k)) ⟨(x1 (ix1 r)).toNat, h⟩ (fun n k => x2 (ix2 n k)) (fun n => x3 (ix1 n)) j := by
  rw [Cert.RefTake.take1 x0 x1 x2 x3 r h j, v4_dense]
  rfl

/-- The sums of the kept and the shared outputs on the first 15 columns. -/
private theorem v18_hidden (r : Fin 16384) (h : (x1 (ix1 r)).toNat < 8) (j : Fin 15) :
    val_main_v18 (F := Ideal) x0 x1 x2 x3 x4 x5 (ix2 r j) = Cert.Spec.hidden (fun k => x0 (ix2 r k)) ⟨(x1 (ix1 r)).toNat, h⟩ (fun n k => x2 (ix2 n k)) (fun n => x3 (ix1 n)) (fun j k => x4 (ix2 j k)) (fun j => x5 (ix1 j)) j := by
  rw [val_main_v18_apply, val_main_v14_apply, val_main_v16_apply]
  have e1 : idx_main_v14 (ix2 r j) = ix2 r (⟨j.val, by have := j.isLt; omega⟩ : Fin 16) := funext fun a => by
    match a with
    | ⟨0, _⟩ => rfl
    | ⟨1, _⟩ => rfl
  have e2 : idx_main_v16 (ix2 r j) = ix2 r (⟨j.val, by have := j.isLt; omega⟩ : Fin 16) := funext fun a => by
    match a with
    | ⟨0, _⟩ => rfl
    | ⟨1, _⟩ => rfl
  rw [e1, e2, v8_sel1 x0 x1 x2 x3 r h, v13_dense]
  rfl

/-- The joined block read in its left half: the scaled squares. -/
private theorem v22_left (r : Fin 16384) (q : Fin 30) (hq : q.val < 15) :
    val_main_v22 (F := Ideal) x0 x1 x2 x3 x4 x5 (ix2 r q)
      = val_main_v21 (F := Ideal) x0 x1 x2 x3 x4 x5 (ix2 r (⟨q.val, hq⟩ : Fin 15)) := by
  unfold val_main_v22
  exact concatenate_pair_apply_left (s₁ := S16384x15) (s₂ := S16384x15) 1 _ _ _ (ix2 r q) rfl (ix2 r (⟨q.val, hq⟩ : Fin 15)) (fun b => by
    match b with
    | ⟨0, _⟩ => rfl
    | ⟨1, _⟩ => rfl)

/-- The joined block read in its right half: the sums themselves. -/
private theorem v22_right (r : Fin 16384) (q : Fin 30) (hq : ¬ q.val < 15) :
    val_main_v22 (F := Ideal) x0 x1 x2 x3 x4 x5 (ix2 r q)
      = val_main_v18 (F := Ideal) x0 x1 x2 x3 x4 x5 (ix2 r (⟨q.val - 15, by have := q.isLt; omega⟩ : Fin 15)) := by
  unfold val_main_v22
  exact concatenate_pair_apply_right (s₁ := S16384x15) (s₂ := S16384x15) 1 _ _ _ (ix2 r q) rfl rfl
    (ix2 r (⟨q.val - 15, by have := q.isLt; omega⟩ : Fin 15))
    (fun b hb => by
      match b, hb with
      | ⟨0, _⟩, _ => rfl
      | ⟨1, _⟩, hb => exact absurd rfl hb)
    (by show q.val - 15 + 15 = q.val; omega)

/-- The 30 clipped features. -/
private theorem v23_feat (r : Fin 16384) (h : (x1 (ix1 r)).toNat < 8) (q : Fin 30) :
    val_main_v23 (F := Ideal) x0 x1 x2 x3 x4 x5 (ix2 r q) = Cert.Spec.feat (fun k => x0 (ix2 r k)) ⟨(x1 (ix1 r)).toNat, h⟩ (fun n k => x2 (ix2 n k)) (fun n => x3 (ix1 n)) (fun j k => x4 (ix2 j k)) (fun j => x5 (ix1 j)) q := by
  rw [val_main_v23_apply, val_main_call1_v4_apply, val_main_call1_v3_apply, val_main_cst_1_apply,
    val_main_call1_v2_apply, val_main_call1_v1_apply, val_main_call1_v0_apply, val_main_cst_0_apply]
  unfold Cert.Spec.feat Cert.Spec.clip01
  by_cases hq : q.val < 15
  · rw [dif_pos hq, v22_left x0 x1 x2 x3 x4 x5 r q hq, val_main_v21_apply, val_main_v19_apply, val_main_v20_apply,
      val_main_cst_apply, v18_hidden x0 x1 x2 x3 x4 x5 r h]
    rfl
  · rw [dif_neg hq, v22_right x0 x1 x2 x3 x4 x5 r q hq, v18_hidden x0 x1 x2 x3 x4 x5 r h]
    rfl

/-- Layer 2 of the reference at an index. -/
private theorem v28_dense (r : Fin 16384) (h : (x1 (ix1 r)).toNat < 8) (n : Fin 256) :
    val_main_v28 (F := Ideal) x0 x1 x2 x3 x4 x5 x6 x7 (ix2 r n)
      = Cert.Spec.dense (Cert.Spec.feat (fun k => x0 (ix2 r k)) ⟨(x1 (ix1 r)).toNat, h⟩ (fun n k => x2 (ix2 n k)) (fun n => x3 (ix1 n)) (fun j k => x4 (ix2 j k)) (fun j => x5 (ix1 j))) (fun n q => x6 (ix2 n q)) (fun n => x7 (ix1 n)) n := by
  rw [val_main_v28_apply, val_main_v25_apply, val_main_v27_apply, val_main_v26_apply]
  unfold Cert.Spec.dense
  show (∑ k : Fin 30, val_main_v23 (F := Ideal) x0 x1 x2 x3 x4 x5 (lidx_main_v25 (ix2 r n) k)
        * val_main_v24 (F := Ideal) x6 (ridx_main_v25 (ix2 r n) k))
      + x7 (idx_main_v26 (idx_main_v27 (ix2 r n))) = _
  refine congrArg₂ (· + ·) (Finset.sum_congr rfl fun k _ => ?_) ?_
  · rw [val_main_v24_apply]
    have e1 : lidx_main_v25 (ix2 r n) k = ix2 r k := funext fun a => by
      match a with
      | ⟨0, _⟩ => rfl
      | ⟨1, _⟩ => rfl
    have e2 : idx_main_v24 (ridx_main_v25 (ix2 r n) k) = ix2 n k := funext fun a => by
      match a with
      | ⟨0, _⟩ => rfl
      | ⟨1, _⟩ => rfl
    rw [e1, e2, v23_feat x0 x1 x2 x3 x4 x5 r h]
  · exact congrArg x7 (funext fun a => by
      match a with
      | ⟨0, _⟩ => rfl)

/-- The kept outputs of layer 2, clipped. -/
private theorem v33_sel2 (r : Fin 16384) (h : (x1 (ix1 r)).toNat < 8) (j : Fin 32) :
    val_main_v33 (F := Ideal) x0 x1 x2 x3 x4 x5 x6 x7 (ix2 r j)
      = Cert.Spec.sel2 (fun k => x0 (ix2 r k)) ⟨(x1 (ix1 r)).toNat, h⟩ (fun n k => x2 (ix2 n k)) (fun n => x3 (ix1 n)) (fun j k => x4 (ix2 j k)) (fun j => x5 (ix1 j)) (fun n q => x6 (ix2 n q)) (fun n => x7 (ix1 n)) j := by
  rw [val_main_v33_apply, val_main_call3_v4_apply, val_main_call3_v3_apply, val_main_cst_3_apply,
    val_main_call3_v2_apply, val_main_call3_v1_apply, val_main_call3_v0_apply, val_main_cst_2_apply,
    Cert.RefTake.take2 x0 x1 x2 x3 x4 x5 x6 x7 r h j, v28_dense x0 x1 x2 x3 x4 x5 x6 x7 r h]
  rfl

/-- The output layer of the reference at an index. -/
private theorem v38_score (r : Fin 16384) (h : (x1 (ix1 r)).toNat < 8) (n : Fin 8) :
    val_main_v38 (F := Ideal) x0 x1 x2 x3 x4 x5 x6 x7 x8 x9 (ix2 r n)
      = Cert.Spec.score (fun k => x0 (ix2 r k)) ⟨(x1 (ix1 r)).toNat, h⟩ (fun n k => x2 (ix2 n k)) (fun n => x3 (ix1 n)) (fun j k => x4 (ix2 j k)) (fun j => x5 (ix1 j)) (fun n q => x6 (ix2 n q)) (fun n => x7 (ix1 n)) (fun n j => x8 (ix2 n j)) (fun n => x9 (ix1 n)) n := by
  rw [val_main_v38_apply, val_main_v35_apply, val_main_v37_apply, val_main_v36_apply]
  unfold Cert.Spec.score Cert.Spec.dense
  show (∑ k : Fin 32, val_main_v33 (F := Ideal) x0 x1 x2 x3 x4 x5 x6 x7 (lidx_main_v35 (ix2 r n) k)
        * val_main_v34 (F := Ideal) x8 (ridx_main_v35 (ix2 r n) k))
      + x9 (idx_main_v36 (idx_main_v37 (ix2 r n))) = _
  refine congrArg₂ (· + ·) (Finset.sum_congr rfl fun k _ => ?_) ?_
  · rw [val_main_v34_apply]
    have e1 : lidx_main_v35 (ix2 r n) k = ix2 r k := funext fun a => by
      match a with
      | ⟨0, _⟩ => rfl
      | ⟨1, _⟩ => rfl
    have e2 : idx_main_v34 (ridx_main_v35 (ix2 r n) k) = ix2 n k := funext fun a => by
      match a with
      | ⟨0, _⟩ => rfl
      | ⟨1, _⟩ => rfl
    rw [e1, e2, v33_sel2 x0 x1 x2 x3 x4 x5 x6 x7 r h]
  · exact congrArg x9 (funext fun a => by
      match a with
      | ⟨0, _⟩ => rfl)

/-- The reference's result at row `r`. -/
theorem ref_row (r : Fin 16384) (h : (x1 (ix1 r)).toNat < 8) :
    val_main_v44 (F := Ideal) x0 x1 x2 x3 x4 x5 x6 x7 x8 x9 (ix2 r (0 : Fin 1))
      = Cert.Spec.rowAt x0 x1 x2 x3 x4 x5 x6 x7 x8 x9 r := by
  rw [val_main_v44_apply, val_main_v43_apply, Cert.RefTake.take3 x0 x1 x2 x3 x4 x5 x6 x7 x8 x9 r h,
    v38_score x0 x1 x2 x3 x4 x5 x6 x7 x8 x9 r h, val_main_v17_apply, val_main_v15_apply]
  have e17 : idx_main_v17 (ix2 r (0 : Fin 1)) = ix2 r (15 : Fin 16) := funext fun a => by
    match a with
    | ⟨0, _⟩ => rfl
    | ⟨1, _⟩ => rfl
  have e15 : idx_main_v15 (ix2 r (0 : Fin 1)) = ix2 r (15 : Fin 16) := funext fun a => by
    match a with
    | ⟨0, _⟩ => rfl
    | ⟨1, _⟩ => rfl
  rw [e17, e15, v13_dense, v8_sel1 x0 x1 x2 x3 r h, Cert.Spec.rowAt_of_lt _ _ _ _ _ _ _ _ _ _ r h]
  rfl

end Cert.RefRow

end
-- ==== Proof.LibPlainDot.lean ====
/-
  A matrix product contracted over ONE axis, read at an index.

  For an `A × K` left operand and a `K × B` right operand whose dimension numbers contract the left operand's
  second axis against the right operand's first (no batch axes), the contraction index has one coordinate
  `k : Fin K`, the left operand is read at `(p, k)` and the right one at `(k, q)`. So the sum over the contraction
  index that the product's value is stated with is the textbook `∑ k, f (p, k) · g (k, q)`, whatever the sizes.
  `eq_plain` identifies any record with these dimension numbers with the library's `DotDims.plain`, for which the
  two operand indices compute.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx
open scoped BigOperators

variable {A K B : Nat}

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

/-- The contraction shape has one axis … -/
theorem plain_rank : (DotDims.plain A K B).contr.rank = 1 := rfl
/-- … of extent `K`. -/
theorem plain_size : (DotDims.plain A K B).contr.size ⟨0, by rw [plain_rank]; exact Nat.one_pos⟩ = K := rfl

/-- At result index `(p, q)` and contraction coordinate `k` the left operand is read at `(p, k)`. -/
theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

/-- At result index `(p, q)` and contraction coordinate `k` the right operand is read at `(k, q)`. -/
theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A block product into the zero accumulator, at `(p, q)`: `∑ k, lhs (p, k) · rhs (k, q)`. -/
theorem matmul_zero_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ .f32) (rhs : FVec Ideal ⟨2, ![K, B]⟩ .f32)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-- The host's product at `(p, q)`, whatever its schedule key: the same sum. -/
theorem dotGeneral_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ .f32) (rhs : FVec Ideal ⟨2, ![K, B]⟩ .f32)
    (p : Fin A) (q : Fin B) :
    FloatOps.dotGeneral d prec sched lhs rhs (ix2 p q) = ∑ k : Fin K, lhs (ix2 p k) * rhs (ix2 k q) := by
  rw [eq_plain d hlc hrc hln hrn hlb hrb, Ideal.dotGeneral_apply]
  exact plain_sum lhs rhs p q

end Cert.LibPlainDot

end
-- ==== Proof.KerLayer1.lean ====
/-
  Layer 1 of the kernel's body at one row of a block, on the extended reals: the one-hot bucket weights, the
  kept outputs of the bucketed dense map, and the shared dense map.
-/
import proofs.«422395_j67645734912396_3_alg».proof.Proof.Gen.KernelIdeal.Skeleton
import proofs.«422395_j67645734912396_3_alg».proof.Proof.Spec
import proofs.«422395_j67645734912396_3_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.KerLayer1

open Idealize.ShloMosaic Idealize.ShloMosaic.TcCoe Idealize.ShloMosaic.ValueIdx Cert.KernelIdeal Cert.KernelIdeal.Gen
open scoped BigOperators

/-! ## Two column forms of the layout operations, read at an index -/

section Layout
variable {α : Type}

/-- An `[a]` array cast to the column `[a, 1]` reads, at `(i, u)`, the operand at `i`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The comparison of a small word with a lane number -/

/-- A 32-bit word below 8 equals the word of a lane number below 8 exactly when their numbers agree. -/
private theorem cmpi_eq_lane (w : BitVec 32) (n : Nat) (hn : n < 8) :
    IntOp.cmpi .eq w (BitVec.ofNat 32 n) = if w.toNat = n then 1#1 else 0#1 := by
  unfold IntOp.cmpi
  by_cases h : w.toNat = n
  · have hw : w = BitVec.ofNat 32 n := BitVec.eq_of_toNat_eq (by rw [BitVec.toNat_ofNat]; omega)
    rw [if_pos h, hw]; simp
  · have hw : w ≠ BitVec.ofNat 32 n := fun e => h (by rw [e, BitVec.toNat_ofNat]; omega)
    have hb : (w == BitVec.ofNat 32 n) = false := beq_eq_false_iff_ne.mpr hw
    rw [if_neg h, hb]; rfl

/-- The bit, widened to 32 bits and read as a signed integer, then as an extended real: 1 or 0. -/
private theorem onehot_word (w : BitVec 32) (hw : w.toNat < 8) (n : Fin 8) :
    FloatOps.sitofp (F := Ideal) .f32 ((IntOp.cmpi .eq w (BitVec.ofNat 32 n.val)).setWidth 32)
      = if (⟨w.toNat, hw⟩ : Fin 8) = n then (1 : EReal) else 0 := by
  rw [cmpi_eq_lane w n.val n.isLt]
  show (((BitVec.setWidth 32 (if w.toNat = n.val then 1#1 else 0#1)).toInt : ℝ) : EReal) = _
  by_cases h : w.toNat = n.val
  · rw [if_pos h, if_pos (Fin.ext h)]
    have : (BitVec.setWidth 32 1#1).toInt = 1 := by decide
    rw [this]; norm_num
  · rw [if_neg h, if_neg (fun e => h (congrArg Fin.val e))]
    have : (BitVec.setWidth 32 0#1).toInt = 0 := by decide
    rw [this]; norm_num

variable (x0 : Vec Ideal S1024x3072 .f32) (x1 : Vec Ideal S1024 .i32) (x2 : Vec Ideal S3072x144 .bf16) (x3 : Vec Ideal S1x144 .f32)

/-- The one-hot weights at row `p`: 1 on the row's bucket, 0 elsewhere. -/
theorem onehot_apply (p : Fin 1024) (h : (x1 (ix1 p)).toNat < 8) (n : Fin 8) :
    k0_pay3 (F := Ideal) x1 (ix2 p n) = if (⟨(x1 (ix1 p)).toNat, h⟩ : Fin 8) = n then (1 : EReal) else 0 := by
  -- the broadcast index column at `(p, n)` is the row's index word
  have hcol : broadcastTo S1024x8 (shapeCast S1024x1 (shapeCast S1024 x1 shapeCasts_S1024_S1024) shapeCasts_S1024_S1024x1)
      broadcasts_S1024x1_S1024x8 (ix2 p n) = x1 (ix1 p) := by
    rw [shapeCast_self]
    exact (broadcastTo_a1_ab_apply _ _ p n).trans (shapeCast_a_a1_apply _ _ p 0)
  -- the lane numbers at `(p, n)` are `n`
  have hlane : iota .tc S1024x8 32 [1] iota_S1024x8_d1_w32 (ix2 p n) = BitVec.ofNat 32 n.val :=
    iota_single_apply .tc S1024x8 32 1 iota_S1024x8_d1_w32 (ix2 p n)
  show FloatOps.sitofp (F := Ideal) .f32 ((IntOp.cmpi .eq
      (broadcastTo S1024x8 (shapeCast S1024x1 (shapeCast S1024 x1 shapeCasts_S1024_S1024) shapeCasts_S1024_S1024x1)
        broadcasts_S1024x1_S1024x8 (ix2 p n))
      (iota .tc S1024x8 32 [1] iota_S1024x8_d1_w32 (ix2 p n))).setWidth 32) = _
  rw [hcol, hlane]
  exact onehot_word _ h n

/-- The joint product with its bias at `(p, n)`: the row against column `n` of the weights, plus bias `n`. -/
private theorem pay2_apply (p : Fin 1024) (n : Fin 144) :
    k0_pay2 (F := Ideal) x0 x2 x3 (ix2 p n) = (∑ k : Fin 3072, x0 (ix2 p k) * x2 (ix2 k n)) + x3 (ix2 (0 : Fin 1) n) := by
  have h1 : k0_pay2 (F := Ideal) x0 x2 x3 (ix2 p n)
      = matmul dot_S1024x3072_S3072x144_S1024x144_1_0_0_1_n_n none (truncf .bf16 x0 bitsLt_bf16_f32)
          (shapeCast S3072x144 x2 shapeCasts_S3072x144_S3072x144) (constant S1024x144 .f32 0x00000000#32) (ix2 p n)
        + broadcastTo S1024x144 (shapeCast S1x144 x3 shapeCasts_S1x144_S1x144) broadcasts_S1x144_S1024x144 (ix2 p n) := rfl
  rw [h1, shapeCast_self, shapeCast_self, broadcastTo_1b_ab_apply]
  congr 1
  exact Cert.LibPlainDot.matmul_zero_apply _ rfl rfl rfl rfl rfl rfl none _ _ p n

/-- The shared dense map at row `p`: columns 128 to 143 of the joint product, plus their bias. -/
theorem fact_apply (p : Fin 1024) (j : Fin 16) :
    k0_pay5 (F := Ideal) x0 x2 x3 (ix2 p j)
      = Cert.Spec.fact (fun k => x0 (ix2 p k)) (fun j k => x2 (ix2 k ⟨128 + j.val, by have := j.isLt; omega⟩))
          (fun j => x3 (ix2 (0 : Fin 1) ⟨128 + j.val, by have := j.isLt; omega⟩)) j := by
  have hs : k0_pay5 (F := Ideal) x0 x2 x3 (ix2 p j)
      = k0_pay2 (F := Ideal) x0 x2 x3 (ix2 p ⟨128 + j.val, by have := j.isLt; omega⟩) :=
    slice2_axis1_apply 128 (k0_pay2 (F := Ideal) x0 x2 x3) slices_S1024x144_o0_128_S1024x16 p j
      ⟨128 + j.val, by have := j.isLt; omega⟩ rfl
  rw [hs, pay2_apply]
  rfl

/-- The first 128 columns of the joint product with its bias, at `(p, n)`. -/
private theorem pay4_apply (p : Fin 1024) (n : Fin 128) :
    k0_pay4 (F := Ideal) x0 x2 x3 (ix2 p n) = k0_pay2 (F := Ideal) x0 x2 x3 (ix2 p ⟨n.val, by have := n.isLt; omega⟩) :=
  slice2_axis1_apply 0 (k0_pay2 (F := Ideal) x0 x2 x3) slices_S1024x144_o0_0_S1024x128 p n
    ⟨n.val, by have := n.isLt; omega⟩ (Nat.zero_add _).symm

/-- One bucket's term: the weight column `o1` broadcast along 16 lanes, times the 16 outputs from column `o2` on. -/
private def term (W : FVec Ideal S1024x8 .f32) (Y : FVec Ideal S1024x128 .f32) (o1 o2 : Nat)
    (hs1 : S1024x8.Slices ![0, o1] S1024x1) (hs2 : S1024x128.Slices ![0, o2] S1024x16) : FVec Ideal S1024x16 .f32 :=
  mulf (broadcastTo S1024x16 (extractStridedSlice S1024x1 ![0, o1] W hs1) broadcasts_S1024x1_S1024x16)
    (extractStridedSlice S1024x16 ![0, o2] Y hs2)

/-- A bucket's term at `(p, j)`: weight `(p, c)` times output `(p, k)`, where `c` is the weight column and `k` is lane `j`
    of the 16 outputs. -/
private theorem term_apply (W : FVec Ideal S1024x8 .f32) (Y : FVec Ideal S1024x128 .f32) (o1 o2 : Nat)
    (hs1 : S1024x8.Slices ![0, o1] S1024x1) (hs2 : S1024x128.Slices ![0, o2] S1024x16)
    (p : Fin 1024) (j : Fin 16) (c : Fin 8) (hc : c.val = o1) (k : Fin 128) (hk : k.val = o2 + j.val) :
    term W Y o1 o2 hs1 hs2 (ix2 p j) = W (ix2 p c) * Y (ix2 p k) := by
  unfold term
  rw [mulf_apply, broadcastTo_a1_ab_apply, slice2_axis1_apply o1 W hs1 p 0 c (by rw [hc]; rfl),
    slice2_axis1_apply o2 Y hs2 p j k hk]

/-- The kept outputs of the bucketed dense map at row `p`: the one-hot weighted sum over the eight buckets keeps the
    row's own. -/
theorem sel1_apply (p : Fin 1024) (h : (x1 (ix1 p)).toNat < 8) (j : Fin 16) :
    k0_pay7 (F := Ideal) (k0_pay3 x1) (k0_pay4 x0 x2 x3) (k0_pay6 x0 x2 x3 x1) (ix2 p j)
      = Cert.Spec.sel1 (fun k => x0 (ix2 p k)) ⟨(x1 (ix1 p)).toNat, h⟩
          (fun n k => x2 (ix2 k ⟨n.val, by have := n.isLt; omega⟩))
          (fun n => x3 (ix2 (0 : Fin 1) ⟨n.val, by have := n.isLt; omega⟩)) j := by
  -- the last two buckets' terms are added to the sum of the first six
  have e7 : k0_pay7 (F := Ideal) (k0_pay3 x1) (k0_pay4 x0 x2 x3) (k0_pay6 x0 x2 x3 x1) (ix2 p j)
      = (k0_pay6 (F := Ideal) x0 x2 x3 x1 (ix2 p j)
          + term (k0_pay3 (F := Ideal) x1) (k0_pay4 (F := Ideal) x0 x2 x3) 6 96 slices_S1024x8_o0_6_S1024x1 slices_S1024x128_o0_96_S1024x16 (ix2 p j))
          + term (k0_pay3 (F := Ideal) x1) (k0_pay4 (F := Ideal) x0 x2 x3) 7 112 slices_S1024x8_o0_7_S1024x1 slices_S1024x128_o0_112_S1024x16 (ix2 p j) := rfl
  -- the first six, added one by one to the zero splat
  have e6 : k0_pay6 (F := Ideal) x0 x2 x3 x1 (ix2 p j)
      = (((((Ideal.ofBits .f32 0x00000000#32
          + term (k0_pay3 (F := Ideal) x1) (k0_pay4 (F := Ideal) x0 x2 x3) 0 0 slices_S1024x8_o0_0_S1024x1 slices_S1024x128_o0_0_S1024x16 (ix2 p j))
          + term (k0_pay3 (F := Ideal) x1) (k0_pay4 (F := Ideal) x0 x2 x3) 1 16 slices_S1024x8_o0_1_S1024x1 slices_S1024x128_o0_16_S1024x16 (ix2 p j))
          + term (k0_pay3 (F := Ideal) x1) (k0_pay4 (F := Ideal) x0 x2 x3) 2 32 slices_S1024x8_o0_2_S1024x1 slices_S1024x128_o0_32_S1024x16 (ix2 p j))
          + term (k0_pay3 (F := Ideal) x1) (k0_pay4 (F := Ideal) x0 x2 x3) 3 48 slices_S1024x8_o0_3_S1024x1 slices_S1024x128_o0_48_S1024x16 (ix2 p j))
          + term (k0_pay3 (F := Ideal) x1) (k0_pay4 (F := Ideal) x0 x2 x3) 4 64 slices_S1024x8_o0_4_S1024x1 slices_S1024x128_o0_64_S1024x16 (ix2 p j))
          + term (k0_pay3 (F := Ideal) x1) (k0_pay4 (F := Ideal) x0 x2 x3) 5 80 slices_S1024x8_o0_5_S1024x1 slices_S1024x128_o0_80_S1024x16 (ix2 p j) := rfl
  -- bucket `n`'s term is its one-hot weight times output `16 n + j` of the 128
  have t : ∀ (n : Fin 8) (o1 o2 : Nat) (hs1 : S1024x8.Slices ![0, o1] S1024x1) (hs2 : S1024x128.Slices ![0, o2] S1024x16),
      n.val = o1 → n.val * 16 = o2 →
      term (k0_pay3 (F := Ideal) x1) (k0_pay4 (F := Ideal) x0 x2 x3) o1 o2 hs1 hs2 (ix2 p j)
        = (if (⟨(x1 (ix1 p)).toNat, h⟩ : Fin 8) = n then (1 : EReal) else 0)
            * k0_pay4 (F := Ideal) x0 x2 x3 (ix2 p ⟨n.val * 16 + j.val, by have := n.isLt; have := j.isLt; omega⟩) := by
    intro n o1 o2 hs1 hs2 h1 h2
    rw [term_apply _ _ o1 o2 hs1 hs2 p j n h1 ⟨n.val * 16 + j.val, by have := n.isLt; have := j.isLt; omega⟩ (by rw [← h2]),
      onehot_apply x1 p h n]
  rw [e7, e6, Ideal.ofBits_zero_f32, t 0 0 0 _ _ rfl rfl, t 1 1 16 _ _ rfl rfl, t 2 2 32 _ _ rfl rfl, t 3 3 48 _ _ rfl rfl,
    t 4 4 64 _ _ rfl rfl, t 5 5 80 _ _ rfl rfl, t 6 6 96 _ _ rfl rfl, t 7 7 112 _ _ rfl rfl]
  refine (Cert.Spec.onehot_fold ⟨(x1 (ix1 p)).toNat, h⟩ (fun n : Fin 8 =>
    k0_pay4 (F := Ideal) x0 x2 x3 (ix2 p ⟨n.val * 16 + j.val, by have := n.isLt; have := j.isLt; omega⟩))).trans ?_
  -- the kept output is column `16 c + j` of the joint product with its bias
  show k0_pay4 (F := Ideal) x0 x2 x3 (ix2 p ⟨(x1 (ix1 p)).toNat * 16 + j.val, _⟩) = _
  rw [pay4_apply, pay2_apply]
  rfl

end Cert.KerLayer1

end
-- ==== Proof.KerTail.lean ====
/-
  The kernel's body after layer 1 at one row of a block, on the extended reals: given the one-hot weights, the kept
  outputs of layer 1 and the shared map's outputs at that row, the stored value is the row's result.
-/
import proofs.«422395_j67645734912396_3_alg».proof.Proof.Gen.KernelIdeal.Skeleton
import proofs.«422395_j67645734912396_3_alg».proof.Proof.Spec
import proofs.«422395_j67645734912396_3_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.KerTail

open Idealize.ShloMosaic Idealize.ShloMosaic.TcCoe Idealize.ShloMosaic.ValueIdx Cert.KernelIdeal Cert.KernelIdeal.Gen
open scoped BigOperators

/-- The slice at column 15 of a 16-column block, at its one column. -/
private theorem slice15_apply (X : FVec Ideal S1024x16 .f32) (p : Fin 1024) :
    extractStridedSlice S1024x1 ![0, 15] X slices_S1024x16_o0_15_S1024x1 (ix2 p (0 : Fin 1)) = X (ix2 p (15 : Fin 16)) :=
  slice2_axis1_apply 15 X _ p 0 15 rfl

/-- The slice of the first 15 columns of a 16-column block. -/
private theorem slice0_15_apply (X : FVec Ideal S1024x16 .f32) (p : Fin 1024) (j : Fin 15) :
    extractStridedSlice S1024x15 ![0, 0] X slices_S1024x16_o0_0_S1024x15 (ix2 p j)
      = X (ix2 p (⟨j.val, by have := j.isLt; omega⟩ : Fin 16)) :=
  slice2_axis1_apply 0 X _ p j ⟨j.val, by have := j.isLt; omega⟩ (Nat.zero_add _).symm

/-- Two 15-column blocks side by side, read in the left one. -/
private theorem concat_left_apply (A B : FVec Ideal S1024x15 .f32) (p : Fin 1024) (q : Fin 30) (h : q.val < 15) :
    concatenate S1024x30 1 [⟨S1024x15, A⟩, ⟨S1024x15, B⟩] concatenates_S1024x15_S1024x15_S1024x30_d1 (ix2 p q)
      = A (ix2 p (⟨q.val, h⟩ : Fin 15)) :=
  concatenate_pair_apply_left 1 A B _ (ix2 p q) rfl (ix2 p (⟨q.val, h⟩ : Fin 15)) (fun b => by
    match b with
    | ⟨0, _⟩ => rfl
    | ⟨1, _⟩ => rfl)

/-- Two 15-column blocks side by side, read in the right one. -/
private theorem concat_right_apply (A B : FVec Ideal S1024x15 .f32) (p : Fin 1024) (q : Fin 30) (h : ¬ q.val < 15) :
    concatenate S1024x30 1 [⟨S1024x15, A⟩, ⟨S1024x15, B⟩] concatenates_S1024x15_S1024x15_S1024x30_d1 (ix2 p q)
      = B (ix2 p (⟨q.val - 15, by have := q.isLt; omega⟩ : Fin 15)) :=
  concatenate_pair_apply_right 1 A B _ (ix2 p q) rfl rfl (ix2 p (⟨q.val - 15, by have := q.isLt; omega⟩ : Fin 15))
    (fun b hb => by
      match b, hb with
      | ⟨0, _⟩, _ => rfl
      | ⟨1, _⟩, hb => exact absurd rfl hb)
    (by show q.val - 15 + 15 = q.val; omega)

/-- The sums of two 16-column blocks on their first 15 columns. -/
private def hidV (P V : FVec Ideal S1024x16 .f32) : FVec Ideal S1024x15 .f32 :=
  addf (extractStridedSlice S1024x15 ![0, 0] P slices_S1024x16_o0_0_S1024x15)
    (extractStridedSlice S1024x15 ![0, 0] V slices_S1024x16_o0_0_S1024x15)

/-- The 30 clipped features: the scaled squares of the sums beside the sums. -/
private def featV (P V : FVec Ideal S1024x16 .f32) : FVec Ideal S1024x30 .f32 :=
  minimumf (broadcast S1024x30 (Scalar.ofBits .f32 0x3F800000#32 : Ideal .f32))
    (maximumf (broadcast S1024x30 (Scalar.ofBits .f32 0x00000000#32 : Ideal .f32))
      (concatenate S1024x30 1
        [⟨S1024x15, mulf (mulf (hidV P V) (hidV P V)) (broadcast S1024x15 (Scalar.ofBits .f32 0x3F7E0000#32 : Ideal .f32))⟩,
          ⟨S1024x15, hidV P V⟩] concatenates_S1024x15_S1024x15_S1024x30_d1))

/-- Layer 2 on a block: the product with the weights into the zero accumulator, plus the bias row. -/
private def denseV (X : FVec Ideal S1024x30 .f32) (W : Vec Ideal S30x256 .bf16) (B : Vec Ideal S1x256 .f32) :
    FVec Ideal S1024x256 .f32 :=
  addf (matmul dot_S1024x30_S30x256_S1024x256_1_0_0_1_n_n none (truncf .bf16 X bitsLt_bf16_f32)
      (shapeCast S30x256 W shapeCasts_S30x256_S30x256 : FVec Ideal S30x256 .bf16) (constant S1024x256 .f32 0x00000000#32))
    (broadcastTo S1024x256 (shapeCast S1x256 B shapeCasts_S1x256_S1x256 : FVec Ideal S1x256 .f32) broadcasts_S1x256_S1024x256)

private theorem pay10_eq (v16 : FVec Ideal S1024x8 .f32) (v17 : FVec Ideal S1024x128 .f32) (v18 : FVec Ideal S1024x16 .f32)
    (v49 : FVec Ideal S1024x16 .f32) (x4 : Vec Ideal S30x256 .bf16) (x5 : Vec Ideal S1x256 .f32) :
    k0_pay10 (F := Ideal) v16 v17 v18 v49 x4 x5 = denseV (featV (k0_pay7 v16 v17 v49) v18) x4 x5 := rfl

/-- One bucket's term: the weight column spread over 32 columns, times a 32-column slice. -/
private def termV (ow od : Nat) (hw : S1024x8.Slices ![0, ow] S1024x1) (hd : S1024x256.Slices ![0, od] S1024x32)
    (w : FVec Ideal S1024x8 .f32) (D : FVec Ideal S1024x256 .f32) : FVec Ideal S1024x32 .f32 :=
  mulf (broadcastTo S1024x32 (extractStridedSlice S1024x1 ![0, ow] w hw) broadcasts_S1024x1_S1024x32)
    (extractStridedSlice S1024x32 ![0, od] D hd)

private theorem pay11_eq (v16 : FVec Ideal S1024x8 .f32) (v17 : FVec Ideal S1024x128 .f32) (v18 : FVec Ideal S1024x16 .f32)
    (v49 : FVec Ideal S1024x16 .f32) (x4 : Vec Ideal S30x256 .bf16) (x5 : Vec Ideal S1x256 .f32) :
    k0_pay11 (F := Ideal) v16 v17 v18 v49 x4 x5
      = addf (addf (addf (broadcast S1024x32 (Scalar.ofBits .f32 0x00000000#32 : Ideal .f32))
          (termV 0 0 slices_S1024x8_o0_0_S1024x1 slices_S1024x256_o0_0_S1024x32 v16 (k0_pay10 v16 v17 v18 v49 x4 x5)))
          (termV 1 32 slices_S1024x8_o0_1_S1024x1 slices_S1024x256_o0_32_S1024x32 v16 (k0_pay10 v16 v17 v18 v49 x4 x5)))
          (termV 2 64 slices_S1024x8_o0_2_S1024x1 slices_S1024x256_o0_64_S1024x32 v16 (k0_pay10 v16 v17 v18 v49 x4 x5)) := rfl

private theorem pay12_eq (v16 : FVec Ideal S1024x8 .f32) (v17 : FVec Ideal S1024x128 .f32) (v18 : FVec Ideal S1024x16 .f32)
    (v49 : FVec Ideal S1024x16 .f32) (x4 : Vec Ideal S30x256 .bf16) (x5 : Vec Ideal S1x256 .f32) :
    k0_pay12 (F := Ideal) v16 v17 v18 v49 x4 x5
      = termV 3 96 slices_S1024x8_o0_3_S1024x1 slices_S1024x256_o0_96_S1024x32 v16 (k0_pay10 v16 v17 v18 v49 x4 x5) := rfl

/-- The clip to [0, 1] of a 32-column block. -/
private def clipV (X : FVec Ideal S1024x32 .f32) : FVec Ideal S1024x32 .f32 :=
  minimumf (broadcast S1024x32 (Scalar.ofBits .f32 0x3F800000#32 : Ideal .f32))
    (maximumf (broadcast S1024x32 (Scalar.ofBits .f32 0x00000000#32 : Ideal .f32)) X)

/-- The output layer on a block. -/
private def scoreV (X : FVec Ideal S1024x32 .f32) (W : Vec Ideal S32x8 .bf16) (B : Vec Ideal S1x8 .f32) : FVec Ideal S1024x8 .f32 :=
  addf (matmul dot_S1024x32_S32x8_S1024x8_1_0_0_1_n_n none (truncf .bf16 X bitsLt_bf16_f32)
      (shapeCast S32x8 W shapeCasts_S32x8_S32x8 : FVec Ideal S32x8 .bf16) (constant S1024x8 .f32 0x00000000#32))
    (broadcastTo S1024x8 (shapeCast S1x8 B shapeCasts_S1x8_S1x8 : FVec Ideal S1x8 .f32) broadcasts_S1x8_S1024x8)

/-- The weighted lane sum of the scores, as a column, plus two columns, flattened. -/
private def outV (w Sc : FVec Ideal S1024x8 .f32) (a63 a61 : FVec Ideal S1024x1 .f32) : FVec Ideal S1024 .f32 :=
  shapeCast S1024 (addf (addf (shapeCast S1024x1
      (multiReduction .add [1] S1024 (mulf w Sc) 0x00000000#32 reduces_S1024x8_S1024 (.inl rfl) rfl)
      shapeCasts_S1024_S1024x1) a63) a61) shapeCasts_S1024x1_S1024

private theorem pay1_eq (v16 : FVec Ideal S1024x8 .f32) (v61 v63 : FVec Ideal S1024x1 .f32) (v80 : FVec Ideal S1024x256 .f32)
    (v96 v100 : FVec Ideal S1024x32 .f32) (v126 : Vec Ideal S32x8 .bf16) (v130 : Vec Ideal S1x8 .f32) :
    k0_pay1 (F := Ideal) v16 v61 v63 v80 v96 v100 v126 v130
      = outV v16 (scoreV (clipV (addf (addf (addf (addf (addf v96 v100)
          (termV 4 128 slices_S1024x8_o0_4_S1024x1 slices_S1024x256_o0_128_S1024x32 v16 v80))
          (termV 5 160 slices_S1024x8_o0_5_S1024x1 slices_S1024x256_o0_160_S1024x32 v16 v80))
          (termV 6 192 slices_S1024x8_o0_6_S1024x1 slices_S1024x256_o0_192_S1024x32 v16 v80))
          (termV 7 224 slices_S1024x8_o0_7_S1024x1 slices_S1024x256_o0_224_S1024x32 v16 v80))) v126 v130) v63 v61 := rfl

private theorem hidV_apply (P V : FVec Ideal S1024x16 .f32) (p : Fin 1024) (j : Fin 15) :
    hidV P V (ix2 p j) = P (ix2 p (⟨j.val, by have := j.isLt; omega⟩ : Fin 16))
      + V (ix2 p (⟨j.val, by have := j.isLt; omega⟩ : Fin 16)) := by
  unfold hidV
  rw [addf_apply, slice0_15_apply, slice0_15_apply]

/-- The features at a row whose sums are known. -/
private theorem featV_apply (P V : FVec Ideal S1024x16 .f32) (p : Fin 1024) (q : Fin 30) (hid : Fin 15 → EReal)
    (hh : ∀ j : Fin 15, hidV P V (ix2 p j) = hid j) :
    featV P V (ix2 p q) = Cert.Spec.clip01 (if h : q.val < 15 then hid ⟨q.val, h⟩ * hid ⟨q.val, h⟩ * Cert.Spec.scale
      else hid ⟨q.val - 15, by have := q.isLt; omega⟩) := by
  unfold featV Cert.Spec.clip01
  rw [minimumf_apply, maximumf_apply, broadcast_apply, broadcast_apply]
  by_cases h : q.val < 15
  · rw [dif_pos h, concat_left_apply _ _ p q h, mulf_apply, mulf_apply, broadcast_apply, hh]
    rfl
  · rw [dif_neg h, concat_right_apply _ _ p q h, hh]
    rfl

/-- Layer 2 at an index: the inner product with a column of the weights, plus the bias. -/
private theorem denseV_apply (X : FVec Ideal S1024x30 .f32) (W : Vec Ideal S30x256 .bf16) (B : Vec Ideal S1x256 .f32)
    (p : Fin 1024) (n : Fin 256) :
    denseV X W B (ix2 p n) = (∑ k : Fin 30, X (ix2 p k) * W (ix2 k n)) + B (ix2 (0 : Fin 1) n) := by
  unfold denseV
  rw [addf_apply, shapeCast_self, shapeCast_self, broadcastTo_1b_ab_apply]
  refine congrArg (· + B (ix2 (0 : Fin 1) n)) ?_
  exact Cert.LibPlainDot.matmul_zero_apply dot_S1024x30_S30x256_S1024x256_1_0_0_1_n_n rfl rfl rfl rfl rfl rfl none _ _ p n

/-- A column spread over 32 columns reads the column. -/
private theorem bcast_col_apply (v : FVec Ideal S1024x1 .f32) (p : Fin 1024) (j : Fin 32) :
    broadcastTo S1024x32 v broadcasts_S1024x1_S1024x32 (ix2 p j) = v (ix2 p (0 : Fin 1)) := by
  refine broadcastTo_apply v _ (ix2 p j) (ix2 p (0 : Fin 1)) fun ax => ?_
  match ax with
  | ⟨0, _⟩ => rfl
  | ⟨1, _⟩ => rfl

private theorem termV_apply (ow od : Nat) (hw : S1024x8.Slices ![0, ow] S1024x1) (hd : S1024x256.Slices ![0, od] S1024x32)
    (w : FVec Ideal S1024x8 .f32) (D : FVec Ideal S1024x256 .f32) (p : Fin 1024) (j : Fin 32) (n : Fin 8) (k : Fin 256)
    (hn : n.val = ow) (hk : k.val = od + j.val) :
    termV ow od hw hd w D (ix2 p j) = w (ix2 p n) * D (ix2 p k) := by
  unfold termV
  rw [mulf_apply, bcast_col_apply, slice2_axis1_apply ow w hw p (0 : Fin 1) n (by rw [hn]; rfl),
    slice2_axis1_apply od D hd p j k hk]

private theorem clipV_apply (X : FVec Ideal S1024x32 .f32) (i : S1024x32.Idx) : clipV X i = Cert.Spec.clip01 (X i) := rfl

/-- The output layer at an index. -/
private theorem scoreV_apply (X : FVec Ideal S1024x32 .f32) (W : Vec Ideal S32x8 .bf16) (B : Vec Ideal S1x8 .f32)
    (p : Fin 1024) (n : Fin 8) :
    scoreV X W B (ix2 p n) = (∑ k : Fin 32, X (ix2 p k) * W (ix2 k n)) + B (ix2 (0 : Fin 1) n) := by
  unfold scoreV
  rw [addf_apply, shapeCast_self, shapeCast_self, broadcastTo_1b_ab_apply]
  refine congrArg (· + B (ix2 (0 : Fin 1) n)) ?_
  exact Cert.LibPlainDot.matmul_zero_apply dot_S1024x32_S32x8_S1024x8_1_0_0_1_n_n rfl rfl rfl rfl rfl rfl none _ _ p n

/-- The eight buckets' terms summed from zero, at a row whose weights are one-hot at `c`: bucket `c`'s slice. -/
private theorem bucket_sum_apply (w : FVec Ideal S1024x8 .f32) (D : FVec Ideal S1024x256 .f32) (p : Fin 1024) (c : Fin 8)
    (j : Fin 32) (h16 : ∀ n : Fin 8, w (ix2 p n) = if c = n then (1 : EReal) else 0) :
    addf (addf (addf (addf (addf (addf (addf (addf
      (broadcast S1024x32 (Scalar.ofBits .f32 0x00000000#32 : Ideal .f32)) (termV 0 0 slices_S1024x8_o0_0_S1024x1 slices_S1024x256_o0_0_S1024x32 w D)) (termV 1 32 slices_S1024x8_o0_1_S1024x1 slices_S1024x256_o0_32_S1024x32 w D)) (termV 2 64 slices_S1024x8_o0_2_S1024x1 slices_S1024x256_o0_64_S1024x32 w D))
      (termV 3 96 slices_S1024x8_o0_3_S1024x1 slices_S1024x256_o0_96_S1024x32 w D)) (termV 4 128 slices_S1024x8_o0_4_S1024x1 slices_S1024x256_o0_128_S1024x32 w D)) (termV 5 160 slices_S1024x8_o0_5_S1024x1 slices_S1024x256_o0_160_S1024x32 w D)) (termV 6 192 slices_S1024x8_o0_6_S1024x1 slices_S1024x256_o0_192_S1024x32 w D)) (termV 7 224 slices_S1024x8_o0_7_S1024x1 slices_S1024x256_o0_224_S1024x32 w D) (ix2 p j)
      = D (ix2 p (⟨c.val * 32 + j.val, by have := c.isLt; have := j.isLt; omega⟩ : Fin 256)) := by
  have hb : ∀ n : Fin 8, n.val * 32 + j.val < 256 := fun n => by have := n.isLt; have := j.isLt; omega
  simp only [addf_apply, broadcast_apply]
  rw [termV_apply 0 0 _ _ w D p j 0 ⟨(0 : Fin 8).val * 32 + j.val, hb 0⟩ rfl (by show 0 * 32 + j.val = _; omega),
    termV_apply 1 32 _ _ w D p j 1 ⟨(1 : Fin 8).val * 32 + j.val, hb 1⟩ rfl (by show 1 * 32 + j.val = _; omega),
    termV_apply 2 64 _ _ w D p j 2 ⟨(2 : Fin 8).val * 32 + j.val, hb 2⟩ rfl (by show 2 * 32 + j.val = _; omega),
    termV_apply 3 96 _ _ w D p j 3 ⟨(3 : Fin 8).val * 32 + j.val, hb 3⟩ rfl (by show 3 * 32 + j.val = _; omega),
    termV_apply 4 128 _ _ w D p j 4 ⟨(4 : Fin 8).val * 32 + j.val, hb 4⟩ rfl (by show 4 * 32 + j.val = _; omega),
    termV_apply 5 160 _ _ w D p j 5 ⟨(5 : Fin 8).val * 32 + j.val, hb 5⟩ rfl (by show 5 * 32 + j.val = _; omega),
    termV_apply 6 192 _ _ w D p j 6 ⟨(6 : Fin 8).val * 32 + j.val, hb 6⟩ rfl (by show 6 * 32 + j.val = _; omega),
    termV_apply 7 224 _ _ w D p j 7 ⟨(7 : Fin 8).val * 32 + j.val, hb 7⟩ rfl (by show 7 * 32 + j.val = _; omega),
    h16 0, h16 1, h16 2, h16 3, h16 4, h16 5, h16 6, h16 7]
  rw [show (Scalar.ofBits .f32 0x00000000#32 : Ideal .f32) = (0 : EReal) from Ideal.ofBits_zero_f32]
  exact Cert.Spec.onehot_fold c (fun n : Fin 8 => D (ix2 p (⟨n.val * 32 + j.val, hb n⟩ : Fin 256)))

/-- The sum over the 8 lanes at a row. -/
private theorem lanesum_apply (X : FVec Ideal S1024x8 .f32) (p : Fin 1024) :
    multiReduction (F := Ideal) .add [1] S1024 X 0x00000000#32 reduces_S1024x8_S1024 (.inl rfl) rfl (ix1 p)
      = ∑ n : Fin 8, X (ix2 p n) := by
  refine (Ideal.multiReduction_add_single X _ reduces_S1024x8_S1024 _ _ (ix1 p)).trans ?_
  show ∑ k : Fin 8, X (reduces_S1024x8_S1024.lift (ix1 p) k) = _
  refine Finset.sum_congr rfl fun n _ => congrArg X ?_
  funext a
  apply Fin.ext
  match a with
  | ⟨0, _⟩ => rfl
  | ⟨1, _⟩ => rfl

/-- A vector as a column, at a row. -/
private theorem col_apply (x : FVec Ideal S1024 .f32) (p : Fin 1024) :
    shapeCast S1024x1 x shapeCasts_S1024_S1024x1 (ix2 p (0 : Fin 1)) = x (ix1 p) :=
  shapeCast_apply x _ _ _ (by
    rw [Shape.rowMajor_val_two, Shape.rowMajor_val_one]
    show p.val = p.val * 1 + 0
    omega)

/-- A column as a vector, at a row. -/
private theorem flat_apply (x : FVec Ideal S1024x1 .f32) (p : Fin 1024) :
    shapeCast S1024 x shapeCasts_S1024x1_S1024 (ix1 p) = x (ix2 p (0 : Fin 1)) :=
  shapeCast_apply x _ _ _ (by
    rw [Shape.rowMajor_val_two, Shape.rowMajor_val_one]
    show p.val * 1 + 0 = p.val
    omega)

/-- The stored vector at a row: the weighted lane sum of the scores plus the two columns. -/
private theorem outV_apply (w Sc : FVec Ideal S1024x8 .f32) (a63 a61 : FVec Ideal S1024x1 .f32) (p : Fin 1024) :
    outV w Sc a63 a61 (ix1 p)
      = (∑ n : Fin 8, w (ix2 p n) * Sc (ix2 p n)) + a63 (ix2 p (0 : Fin 1)) + a61 (ix2 p (0 : Fin 1)) := by
  unfold outV
  rw [flat_apply, addf_apply, addf_apply, col_apply, lanesum_apply]
  rfl

/-- The stored value at row `p`. `v16` are the one-hot weights, `v17` the 128 outputs of the bucketed map, `v18` the
    shared map's 16 outputs, `v49` the weighted sum over the first six buckets; what is known of them at row `p` are
    the three hypotheses. -/
theorem tail_apply (v16 : FVec Ideal S1024x8 .f32) (v17 : FVec Ideal S1024x128 .f32) (v18 : FVec Ideal S1024x16 .f32)
    (v49 : FVec Ideal S1024x16 .f32) (x4 : Vec Ideal S30x256 .bf16) (x5 : Vec Ideal S1x256 .f32)
    (x6 : Vec Ideal S32x8 .bf16) (x7 : Vec Ideal S1x8 .f32) (p : Fin 1024) (c : Fin 8)
    (a : Fin 3072 → EReal) (w1 : Fin 128 → Fin 3072 → EReal) (b1 : Fin 128 → EReal)
    (wf : Fin 16 → Fin 3072 → EReal) (bf : Fin 16 → EReal)
    (h16 : ∀ n : Fin 8, v16 (ix2 p n) = if c = n then (1 : EReal) else 0)
    (h7 : ∀ j : Fin 16, k0_pay7 (F := Ideal) v16 v17 v49 (ix2 p j) = Cert.Spec.sel1 a c w1 b1 j)
    (h18 : ∀ j : Fin 16, v18 (ix2 p j) = Cert.Spec.fact a wf bf j) :
    k0_pay1 (F := Ideal) v16 (k0_pay8 v16 v17 v49) (k0_pay9 v18) (k0_pay10 v16 v17 v18 v49 x4 x5)
        (k0_pay11 v16 v17 v18 v49 x4 x5) (k0_pay12 v16 v17 v18 v49 x4 x5) x6 x7 (ix1 p)
      = Cert.Spec.rowOut a c w1 b1 wf bf (fun n q => x4 (ix2 q n)) (fun n => x5 (ix2 (0 : Fin 1) n))
          (fun n j => x6 (ix2 j n)) (fun n => x7 (ix2 (0 : Fin 1) n)) := by
  -- the two columns kept from layer 1 and the shared map
  have e8 : k0_pay8 (F := Ideal) v16 v17 v49 (ix2 p (0 : Fin 1)) = Cert.Spec.sel1 a c w1 b1 ⟨15, by omega⟩ := by
    unfold k0_pay8
    exact (slice15_apply _ p).trans (h7 15)
  have e9 : k0_pay9 (F := Ideal) v18 (ix2 p (0 : Fin 1)) = Cert.Spec.fact a wf bf ⟨15, by omega⟩ := by
    unfold k0_pay9
    exact (slice15_apply _ p).trans (h18 15)
  -- the 15 sums, the 30 features, layer 2
  have hhid : ∀ j : Fin 15, hidV (k0_pay7 (F := Ideal) v16 v17 v49) v18 (ix2 p j) = Cert.Spec.hidden a c w1 b1 wf bf j :=
    fun j => by rw [hidV_apply, h7, h18]; rfl
  have hfeat : ∀ q : Fin 30,
      featV (k0_pay7 (F := Ideal) v16 v17 v49) v18 (ix2 p q) = Cert.Spec.feat a c w1 b1 wf bf q :=
    fun q => by rw [featV_apply _ _ p q _ hhid]; rfl
  have hD : ∀ n : Fin 256, k0_pay10 (F := Ideal) v16 v17 v18 v49 x4 x5 (ix2 p n)
      = Cert.Spec.dense (Cert.Spec.feat a c w1 b1 wf bf) (fun n q => x4 (ix2 q n)) (fun n => x5 (ix2 (0 : Fin 1) n)) n :=
    fun n => by
      rw [pay10_eq, denseV_apply]
      unfold Cert.Spec.dense
      refine congrArg (· + x5 (ix2 (0 : Fin 1) n)) (Finset.sum_congr rfl fun k _ => ?_)
      rw [hfeat]
  -- the stored vector: the lane sum keeps the score of bucket `c`
  rw [pay1_eq, outV_apply, e8, e9]
  generalize hSc : scoreV _ x6 x7 = Sc
  have hs : ∑ n : Fin 8, v16 (ix2 p n) * Sc (ix2 p n) = Sc (ix2 p c) := by
    rw [← Cert.Spec.onehot_sum c (fun n => Sc (ix2 p n))]
    exact Finset.sum_congr rfl fun n _ => by rw [h16 n]
  rw [hs, ← hSc, scoreV_apply]
  unfold Cert.Spec.rowOut Cert.Spec.score Cert.Spec.dense
  refine congrArg (· + Cert.Spec.sel1 a c w1 b1 ⟨15, by omega⟩) (congrArg (· + Cert.Spec.fact a wf bf ⟨15, by omega⟩)
    (congrArg (· + x7 (ix2 (0 : Fin 1) c)) (Finset.sum_congr rfl fun k _ => congrArg (· * x6 (ix2 k c)) ?_)))
  -- the kept and clipped outputs of layer 2
  rw [clipV_apply, pay11_eq, pay12_eq, bucket_sum_apply v16 _ p c k h16, hD]
  rfl

end Cert.KerTail

end
-- ==== Proof.KerBody.lean ====
/-
  One row of a block through the kernel's body, on the extended reals: the value the body stores at row `p` of its
  output block is the row's result (`Cert.Spec.rowOut`) of row `p` of the feature block, the bucket that the row's
  index word names, and the weight blocks read as the row-major matrices the specification takes.
-/
import proofs.«422395_j67645734912396_3_alg».proof.Proof.Gen.KernelIdeal.Frame
import proofs.«422395_j67645734912396_3_alg».proof.Proof.Spec
import proofs.«422395_j67645734912396_3_alg».proof.Proof.KerLayer1
import proofs.«422395_j67645734912396_3_alg».proof.Proof.KerTail
import Idealize.ShloMosaic.Lib.Pipeline.Value

noncomputable section

namespace Cert.KerBody

open Idealize.ShloMosaic Idealize.ShloMosaic.TcCoe Idealize.ShloMosaic.ValueIdx Cert.KernelIdeal Cert.KernelIdeal.Gen

theorem hz1 : (![0] : Fin 1 → Nat) = fun _ => 0 := funext fun a => by fin_cases a; rfl
theorem hz2 : (![0, 0] : Fin 2 → Nat) = fun _ => 0 := funext fun a => by fin_cases a <;> rfl

/-- The body's one store covers the whole output block; at row `p` it holds the row's result. -/
theorem body_row (x0 : Vec Ideal S1024x3072 .f32) (x1 : Vec Ideal S1024 .i32) (x2 : Vec Ideal S3072x144 .bf16)
    (x3 : Vec Ideal S1x144 .f32) (x4 : Vec Ideal S30x256 .bf16) (x5 : Vec Ideal S1x256 .f32)
    (x6 : Vec Ideal S32x8 .bf16) (x7 : Vec Ideal S1x8 .f32) (p : Fin 1024) (h : (x1 (ix1 p)).toNat < 8) :
    out0_8 (F := Ideal) x0 x1 x2 x3 x4 x5 x6 x7 (ix1 p)
      = Cert.Spec.rowOut (fun k => x0 (ix2 p k)) ⟨(x1 (ix1 p)).toNat, h⟩
          (fun n k => x2 (ix2 k ⟨n.val, by have := n.isLt; omega⟩))
          (fun n => x3 (ix2 (0 : Fin 1) ⟨n.val, by have := n.isLt; omega⟩))
          (fun j k => x2 (ix2 k ⟨128 + j.val, by have := j.isLt; omega⟩))
          (fun j => x3 (ix2 (0 : Fin 1) ⟨128 + j.val, by have := j.isLt; omega⟩))
          (fun n q => x4 (ix2 q n)) (fun n => x5 (ix2 (0 : Fin 1) n))
          (fun n j => x6 (ix2 j n)) (fun n => x7 (ix2 (0 : Fin 1) n)) := by
  unfold out0_8
  rw [View.canon_unit_zero hz1]
  simp only [View.ld_unit_zero (S := S1024x3072) hz2, View.ld_unit_zero (S := S1024) hz1,
    View.ld_unit_zero (S := S3072x144) hz2, View.ld_unit_zero (S := S1x144) hz2, View.ld_unit_zero (S := S30x256) hz2,
    View.ld_unit_zero (S := S1x256) hz2, View.ld_unit_zero (S := S32x8) hz2, View.ld_unit_zero (S := S1x8) hz2]
  exact Cert.KerTail.tail_apply (k0_pay3 x1) (k0_pay4 x0 x2 x3) (k0_pay5 x0 x2 x3) (k0_pay6 x0 x2 x3 x1) x4 x5 x6 x7 p
    ⟨(x1 (ix1 p)).toNat, h⟩ (fun k => x0 (ix2 p k)) _ _ _ _
    (fun n => Cert.KerLayer1.onehot_apply x1 p h n)
    (fun j => Cert.KerLayer1.sel1_apply x0 x1 x2 x3 p h j)
    (fun j => Cert.KerLayer1.fact_apply x0 x2 x3 p j)

end Cert.KerBody

end
-- ==== Proof.KerHost.lean ====
/-
  The arrays the kernel's region finds, on the extended reals: what the host operations before the region leave in each
  staged operand. The index column is clamped into [0, 7]; the layer-1 weights are the two weight arrays stacked and
  transposed, their biases stacked and laid as a row; the other weights are transposed and the biases laid as rows.
-/
import proofs.«422395_j67645734912396_3_alg».proof.Proof.Gen.KernelIdeal.Frame
import Idealize.ShloMosaic.Lib.Pipeline.Value
import Idealize.ShloMosaic.Lib.ValueIdx
import Idealize.ShloMosaic.Lib.StableHlo.Run

noncomputable section

namespace Cert.KerHost

open Idealize.ShloMosaic Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ)

/-- The index column, clamped below by 0 and above by 7. -/
theorem V_v0 (c : Dev nD) : (V m c main_v0 : S16384.Idx → BitVec 32)
    = minsi (broadcastInDim S16384 ![] bcast_S_S16384 (constantI S_ 32 7#32))
        (maxsi (broadcastInDim S16384 ![] bcast_S_S16384 (constantI S_ 32 0#32)) (m ((c : Thread nD τ).loc main_arg1))) := by
  dsimp only [V, V0]
  simp only [hostOps0, hostOps0_1, hostOps0_2, List.flatten_cons, List.flatten_nil, List.append_nil, List.cons_append,
    List.nil_append]
  after_results
  try rfl

/-- The layer-1 weights: the bucketed and the shared weight arrays stacked along the output axis, transposed. -/
theorem V_v4 (c : Dev nD) : (V m c main_v4 : FVec Ideal S3072x144 .bf16)
    = truncf (F := Ideal) .bf16 (transpose S3072x144 [1, 0] (concatenate S144x3072 0 [⟨S128x3072, m ((c : Thread nD τ).loc main_arg2)⟩,
        ⟨S16x3072, m ((c : Thread nD τ).loc main_arg4)⟩] concatenates_S128x3072_S16x3072_S144x3072_d0)
        transposes_S144x3072_S3072x144_1_0) bitsLt_bf16_f32 := by
  dsimp only [V, V0]
  simp only [hostOps0, hostOps0_1, hostOps0_2, List.flatten_cons, List.flatten_nil, List.append_nil, List.cons_append,
    List.nil_append]
  after_results
  try rfl

/-- The layer-1 biases: the two bias vectors stacked, as a row. -/
theorem V_v5 (c : Dev nD) : (V m c main_v5 : FVec Ideal S1x144 .f32)
    = shapeCast S1x144 (concatenate S144 0 [⟨S128, m ((c : Thread nD τ).loc main_arg3)⟩,
        ⟨S16, m ((c : Thread nD τ).loc main_arg5)⟩] concatenates_S128_S16_S144_d0) shapeCasts_S144_S1x144 := by
  dsimp only [V, V0]
  simp only [hostOps0, hostOps0_1, hostOps0_2, List.flatten_cons, List.flatten_nil, List.append_nil, List.cons_append,
    List.nil_append]
  after_results
  try rfl

/-- The layer-2 weights, transposed. -/
theorem V_v7 (c : Dev nD) : (V m c main_v7 : FVec Ideal S30x256 .bf16)
    = truncf (F := Ideal) .bf16 (transpose S30x256 [1, 0] (m ((c : Thread nD τ).loc main_arg6)) transposes_S256x30_S30x256_1_0) bitsLt_bf16_f32 := by
  dsimp only [V, V0]
  simp only [hostOps0, hostOps0_1, hostOps0_2, List.flatten_cons, List.flatten_nil, List.append_nil, List.cons_append,
    List.nil_append]
  after_results
  try rfl

/-- The layer-2 biases, as a row. -/
theorem V_v8 (c : Dev nD) : (V m c main_v8 : FVec Ideal S1x256 .f32)
    = shapeCast S1x256 (m ((c : Thread nD τ).loc main_arg7)) shapeCasts_S256_S1x256 := by
  dsimp only [V, V0]
  simp only [hostOps0, hostOps0_1, hostOps0_2, List.flatten_cons, List.flatten_nil, List.append_nil, List.cons_append,
    List.nil_append]
  after_results
  try rfl

/-- The output weights, transposed. -/
theorem V_v10 (c : Dev nD) : (V m c main_v10 : FVec Ideal S32x8 .bf16)
    = truncf (F := Ideal) .bf16 (transpose S32x8 [1, 0] (m ((c : Thread nD τ).loc main_arg8)) transposes_S8x32_S32x8_1_0) bitsLt_bf16_f32 := by
  dsimp only [V, V0]
  simp only [hostOps0, hostOps0_1, hostOps0_2, List.flatten_cons, List.flatten_nil, List.append_nil, List.cons_append,
    List.nil_append]
  after_results
  try rfl

/-- The output biases, as a row. -/
theorem V_v11 (c : Dev nD) : (V m c main_v11 : FVec Ideal S1x8 .f32)
    = shapeCast S1x8 (m ((c : Thread nD τ).loc main_arg9)) shapeCasts_S8_S1x8 := by
  dsimp only [V, V0]
  simp only [hostOps0, hostOps0_1, hostOps0_2, List.flatten_cons, List.flatten_nil, List.append_nil, List.cons_append,
    List.nil_append]
  after_results
  try rfl

end Cert.KerHost

end
-- ==== Proof.KerHostAt.lean ====
/-
  The staged operands of the kernel's region read at an index, on the extended reals, in terms of the argument arrays:
  a clamped index word below 8 is the word itself; column `n` of the layer-1 weights is row `n` of the bucketed weights
  for `n < 128` and row `n − 128` of the shared weights otherwise, and likewise for the bias row; the other weights are
  read transposed and the bias rows at their column.
-/
import proofs.«422395_j67645734912396_3_alg».proof.Proof.KerHost

noncomputable section

namespace Cert.KerHost

open Idealize.ShloMosaic Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ)

/-- A transposed matrix narrowed to the short format reads, at `(j, i)`, the matrix at `(i, j)`: on the extended reals the
    format change is the identity. -/
private theorem truncf_transpose_apply {a b : ℕ} (x : FVec Ideal ⟨2, ![a, b]⟩ .f32)
    (h : (⟨2, ![a, b]⟩ : Shape).Transposes [1, 0] ⟨2, ![b, a]⟩) (hb : FTy.bits .bf16 < FTy.bits .f32) (j : Fin b) (i : Fin a) :
    truncf (F := Ideal) .bf16 (transpose ⟨2, ![b, a]⟩ [1, 0] x h) hb (ix2 j i) = x (ix2 i j) :=
  transpose_apply [1, 0] x h (ix2 j i) (ix2 i j) (fun c => match c with | ⟨0, _⟩ => rfl | ⟨1, _⟩ => rfl)

/-- Clamping a word below 8 into [0, 7], signed, leaves it. -/
theorem clamp_id (w : BitVec 32) (h : w.toNat < 8) : IntOp.minsi 7#32 (IntOp.maxsi 0#32 w) = w := by
  obtain ⟨k, hk, rfl⟩ : ∃ k, k < 8 ∧ w = BitVec.ofNat 32 k := ⟨w.toNat, h, by simp⟩
  interval_cases k <;> decide

theorem v0_apply (c : Dev nD) (i : S16384.Idx) (h : ((m ((c : Thread nD τ).loc main_arg1) : S16384.Idx → BitVec 32) i).toNat < 8) :
    (V m c main_v0 : S16384.Idx → BitVec 32) i = (m ((c : Thread nD τ).loc main_arg1) : S16384.Idx → BitVec 32) i := by
  exact (congrFun (V_v0 m c) i).trans (clamp_id _ h)

theorem v4_left (c : Dev nD) (k : Fin 3072) (n : Fin 128) :
    (V m c main_v4 : FVec Ideal S3072x144 .bf16) (ix2 k ⟨n.val, by have := n.isLt; omega⟩)
      = (m ((c : Thread nD τ).loc main_arg2) : FVec Ideal S128x3072 .f32) (ix2 n k) := by
  refine (congrFun (V_v4 m c) _).trans ?_
  refine (truncf_transpose_apply _ _ _ k ⟨n.val, by have := n.isLt; omega⟩).trans ?_
  exact concatenate_pair_apply_left 0 _ _ concatenates_S128x3072_S16x3072_S144x3072_d0 _ rfl (ix2 n k)
    (fun b => match b with | ⟨0, _⟩ => rfl | ⟨1, _⟩ => rfl)

theorem v4_right (c : Dev nD) (k : Fin 3072) (j : Fin 16) :
    (V m c main_v4 : FVec Ideal S3072x144 .bf16) (ix2 k ⟨128 + j.val, by have := j.isLt; omega⟩)
      = (m ((c : Thread nD τ).loc main_arg4) : FVec Ideal S16x3072 .f32) (ix2 j k) := by
  refine (congrFun (V_v4 m c) _).trans ?_
  refine (truncf_transpose_apply _ _ _ k ⟨128 + j.val, by have := j.isLt; omega⟩).trans ?_
  exact concatenate_pair_apply_right 0 _ _ concatenates_S128x3072_S16x3072_S144x3072_d0 _ rfl rfl (ix2 j k)
    (fun b hb => match b, hb with | ⟨0, _⟩, hb => absurd rfl hb | ⟨1, _⟩, _ => rfl)
    (by show j.val + 128 = 128 + j.val; omega)

theorem v5_left (c : Dev nD) (n : Fin 128) :
    (V m c main_v5 : FVec Ideal S1x144 .f32) (ix2 (0 : Fin 1) ⟨n.val, by have := n.isLt; omega⟩)
      = (m ((c : Thread nD τ).loc main_arg3) : FVec Ideal S128 .f32) (ix1 n) := by
  refine (congrFun (V_v5 m c) _).trans ?_
  refine (shapeCast_apply _ shapeCasts_S144_S1x144 _ (ix1 (⟨n.val, by have := n.isLt; omega⟩ : Fin 144)) (by
    rw [Shape.rowMajor_val_one, Shape.rowMajor_val_two]; show n.val = 0 * 144 + n.val; omega)).trans ?_
  exact concatenate_pair_apply_left 0 _ _ concatenates_S128_S16_S144_d0 _ rfl (ix1 n)
    (fun b => match b with | ⟨0, _⟩ => rfl)

theorem v5_right (c : Dev nD) (j : Fin 16) :
    (V m c main_v5 : FVec Ideal S1x144 .f32) (ix2 (0 : Fin 1) ⟨128 + j.val, by have := j.isLt; omega⟩)
      = (m ((c : Thread nD τ).loc main_arg5) : FVec Ideal S16 .f32) (ix1 j) := by
  refine (congrFun (V_v5 m c) _).trans ?_
  refine (shapeCast_apply _ shapeCasts_S144_S1x144 _ (ix1 (⟨128 + j.val, by have := j.isLt; omega⟩ : Fin 144)) (by
    rw [Shape.rowMajor_val_one, Shape.rowMajor_val_two]; show 128 + j.val = 0 * 144 + (128 + j.val); omega)).trans ?_
  exact concatenate_pair_apply_right 0 _ _ concatenates_S128_S16_S144_d0 _ rfl rfl (ix1 j)
    (fun b hb => match b, hb with | ⟨0, _⟩, hb => absurd rfl hb)
    (by show j.val + 128 = 128 + j.val; omega)

theorem v7_apply (c : Dev nD) (q : Fin 30) (n : Fin 256) :
    (V m c main_v7 : FVec Ideal S30x256 .bf16) (ix2 q n) = (m ((c : Thread nD τ).loc main_arg6) : FVec Ideal S256x30 .f32) (ix2 n q) := by
  refine (congrFun (V_v7 m c) _).trans ?_
  exact truncf_transpose_apply _ _ _ q n

theorem v8_apply (c : Dev nD) (n : Fin 256) :
    (V m c main_v8 : FVec Ideal S1x256 .f32) (ix2 (0 : Fin 1) n) = (m ((c : Thread nD τ).loc main_arg7) : FVec Ideal S256 .f32) (ix1 n) := by
  refine (congrFun (V_v8 m c) _).trans ?_
  exact shapeCast_apply _ shapeCasts_S256_S1x256 _ (ix1 n) (by
    rw [Shape.rowMajor_val_one, Shape.rowMajor_val_two]; show n.val = 0 * 256 + n.val; omega)

theorem v10_apply (c : Dev nD) (j : Fin 32) (n : Fin 8) :
    (V m c main_v10 : FVec Ideal S32x8 .bf16) (ix2 j n) = (m ((c : Thread nD τ).loc main_arg8) : FVec Ideal S8x32 .f32) (ix2 n j) := by
  refine (congrFun (V_v10 m c) _).trans ?_
  exact truncf_transpose_apply _ _ _ j n

theorem v11_apply (c : Dev nD) (n : Fin 8) :
    (V m c main_v11 : FVec Ideal S1x8 .f32) (ix2 (0 : Fin 1) n) = (m ((c : Thread nD τ).loc main_arg9) : FVec Ideal S8 .f32) (ix1 n) := by
  refine (congrFun (V_v11 m c) _).trans ?_
  exact shapeCast_apply _ shapeCasts_S8_S1x8 _ (ix1 n) (by
    rw [Shape.rowMajor_val_one, Shape.rowMajor_val_two]; show n.val = 0 * 8 + n.val; omega)

end Cert.KerHost

end
-- ==== Proof.KerArray.lean ====
/-
  The kernel's output array after the run, on the extended reals: point `t` of the grid writes back rows
  `1024 t … 1024 t + 1023` of the result column, each the row's result of the argument arrays; the sixteen blocks tile
  the array; the host operation after the region lays the column as a 16384 × 1 array.
-/
import proofs.«422395_j67645734912396_3_alg».proof.Proof.Gen.KernelIdeal.Frame
import proofs.«422395_j67645734912396_3_alg».proof.Proof.KerBody
import proofs.«422395_j67645734912396_3_alg».proof.Proof.KerHostAt
import proofs.«422395_j67645734912396_3_alg».proof.Proof.SpecAt
import Idealize.ShloMosaic.Lib.Pipeline.Value

noncomputable section

namespace Cert.KerArray

open Idealize.ShloMosaic Idealize.ShloMosaic.TcCoe Idealize.ShloMosaic.ValueIdx Idealize.ShloMosaic.StableHlo Idealize.SL.Sem
open Cert.KernelIdeal Cert.KernelIdeal.Gen Cert.KerHost

variable (m : (ℓ : Loc nD τ sig) → Buf (Elt Ideal) ℓ) (ρ : Dev nD → PrngReg)

/-- The argument arrays, at their literal types. -/
abbrev A0 (c : Dev nD) : FVec Ideal S16384x3072 .f32 := m ((c : Thread nD τ).loc main_arg0)
abbrev A1 (c : Dev nD) : IVec S16384 32 := m ((c : Thread nD τ).loc main_arg1)
abbrev A2 (c : Dev nD) : FVec Ideal S128x3072 .f32 := m ((c : Thread nD τ).loc main_arg2)
abbrev A3 (c : Dev nD) : FVec Ideal S128 .f32 := m ((c : Thread nD τ).loc main_arg3)
abbrev A4 (c : Dev nD) : FVec Ideal S16x3072 .f32 := m ((c : Thread nD τ).loc main_arg4)
abbrev A5 (c : Dev nD) : FVec Ideal S16 .f32 := m ((c : Thread nD τ).loc main_arg5)
abbrev A6 (c : Dev nD) : FVec Ideal S256x30 .f32 := m ((c : Thread nD τ).loc main_arg6)
abbrev A7 (c : Dev nD) : FVec Ideal S256 .f32 := m ((c : Thread nD τ).loc main_arg7)
abbrev A8 (c : Dev nD) : FVec Ideal S8x32 .f32 := m ((c : Thread nD τ).loc main_arg8)
abbrev A9 (c : Dev nD) : FVec Ideal S8 .f32 := m ((c : Thread nD τ).loc main_arg9)

/-- The result column of the argument arrays. -/
abbrev G (c : Dev nD) : S16384.Idx → EReal :=
  Cert.Spec.column (A0 m c) (A1 m c) (A2 m c) (A3 m c) (A4 m c) (A5 m c) (A6 m c) (A7 m c) (A8 m c) (A9 m c)

/-- The row's result depends on its ten arguments only. -/
theorem rowOut_congr {a a' : Fin 3072 → EReal} {c c' : Fin 8} {w1 w1' : Fin 128 → Fin 3072 → EReal} {b1 b1' : Fin 128 → EReal}
    {wf wf' : Fin 16 → Fin 3072 → EReal} {bf bf' : Fin 16 → EReal} {w2 w2' : Fin 256 → Fin 30 → EReal} {b2 b2' : Fin 256 → EReal}
    {wo wo' : Fin 8 → Fin 32 → EReal} {bo bo' : Fin 8 → EReal}
    (h0 : a = a') (hc : c = c') (h1 : w1 = w1') (h2 : b1 = b1') (h3 : wf = wf') (h4 : bf = bf') (h5 : w2 = w2') (h6 : b2 = b2')
    (h7 : wo = wo') (h8 : bo = bo') :
    Cert.Spec.rowOut a c w1 b1 wf bf w2 b2 wo bo = Cert.Spec.rowOut a' c' w1' b1' wf' bf' w2' b2' wo' bo' := by
  subst h0 hc h1 h2 h3 h4 h5 h6 h7 h8; rfl

/-- The printed index maps, decided over the sixteen points: the feature, index and output windows move with the
    point, the weight windows stay. -/
theorem idx_facts : ∀ t : Fin cfg0.N, win0_0.index t (0 : Fin 2) = t.val ∧ win0_0.index t (1 : Fin 2) = 0
    ∧ win0_1.index t (0 : Fin 1) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 1) = t.val :=
  (by decide +kernel : ∀ t : Fin grid0.N, _)

theorem t_lt (t : Fin cfg0.N) : t.val < 16 := lt_of_lt_of_eq t.isLt N_0

/-- Row `p` of point `t`'s blocks is row `1024 t + p` of the arrays. -/
abbrev rowOf (t : Fin cfg0.N) (p : Fin 1024) : Fin 16384 := ⟨t.val * 1024 + p.val, by have := t_lt t; have := p.isLt; omega⟩

/-- The feature block at point `t`, row `p`. -/
theorem iblk0_apply (c : Dev nD) (t : Fin cfg0.N) (p : Fin 1024) (k : Fin 3072) :
    iblk m c 0 t (ix2 p k) = A0 m c (ix2 (rowOf t p) k) := by
  show V m c main_arg0 (((cfg0.win 0).blk t).view.emb (ix2 p k)) = _
  rw [V_main_arg0]
  obtain ⟨e0, e1, -⟩ := idx_facts t
  refine congrArg (A0 m c) (funext fun a => Fin.ext ?_)
  match a with
  | ⟨0, _⟩ => show win0_0.index t (0 : Fin 2) * 1024 + 1 * p.val = t.val * 1024 + p.val; omega
  | ⟨1, _⟩ => show win0_0.index t (1 : Fin 2) * 3072 + 1 * k.val = k.val; omega

/-- The index block at point `t`, row `p`: the clamp leaves a word below 8. -/
theorem iblk1_apply (hidx : ∀ c r, (A1 m c (ix1 r)).toNat < 8) (c : Dev nD) (t : Fin cfg0.N) (p : Fin 1024) :
    iblk m c 1 t (ix1 p) = A1 m c (ix1 (rowOf t p)) := by
  show (V m c main_v0 : S16384.Idx → BitVec 32) (((cfg0.win 1).blk t).view.emb (ix1 p)) = _
  obtain ⟨-, -, e2, -⟩ := idx_facts t
  have e : ((cfg0.win 1).blk t).view.emb (ix1 p) = ix1 (rowOf t p) := funext fun a => Fin.ext (by
    match a with
    | ⟨0, _⟩ => show win0_1.index t (0 : Fin 1) * 1024 + 1 * p.val = t.val * 1024 + p.val; omega)
  rw [e]
  exact v0_apply m c _ (hidx c (rowOf t p))

/-- The staged weight and bias arrays, at their literal types. -/
abbrev W4 (c : Dev nD) : FVec Ideal S3072x144 .bf16 := V m c main_v4
abbrev W5 (c : Dev nD) : FVec Ideal S1x144 .f32 := V m c main_v5
abbrev W7 (c : Dev nD) : FVec Ideal S30x256 .bf16 := V m c main_v7
abbrev W8 (c : Dev nD) : FVec Ideal S1x256 .f32 := V m c main_v8
abbrev W10 (c : Dev nD) : FVec Ideal S32x8 .bf16 := V m c main_v10
abbrev W11 (c : Dev nD) : FVec Ideal S1x8 .f32 := V m c main_v11

/-- The weight windows stage their whole arrays at every point. -/
theorem iblk2_apply (c : Dev nD) (t : Fin cfg0.N) (k : Fin 3072) (n : Fin 144) : iblk m c 2 t (ix2 k n) = W4 m c (ix2 k n) := by
  show W4 m c (((cfg0.win 2).blk t).view.emb (ix2 k n)) = _
  obtain ⟨-, -, -, e3, e4, -⟩ := idx_facts t
  refine congrArg (W4 m c) (funext fun a => Fin.ext ?_)
  match a with
  | ⟨0, _⟩ => show win0_2.index t (0 : Fin 2) * 3072 + 1 * k.val = k.val; omega
  | ⟨1, _⟩ => show win0_2.index t (1 : Fin 2) * 144 + 1 * n.val = n.val; omega
theorem iblk3_apply (c : Dev nD) (t : Fin cfg0.N) (u : Fin 1) (n : Fin 144) : iblk m c 3 t (ix2 u n) = W5 m c (ix2 u n) := by
  show W5 m c (((cfg0.win 3).blk t).view.emb (ix2 u n)) = _
  obtain ⟨-, -, -, -, -, e5, e6, -⟩ := idx_facts t
  refine congrArg (W5 m c) (funext fun a => Fin.ext ?_)
  match a with
  | ⟨0, _⟩ => show win0_3.index t (0 : Fin 2) * 1 + 1 * u.val = u.val; omega
  | ⟨1, _⟩ => show win0_3.index t (1 : Fin 2) * 144 + 1 * n.val = n.val; omega
theorem iblk4_apply (c : Dev nD) (t : Fin cfg0.N) (q : Fin 30) (n : Fin 256) : iblk m c 4 t (ix2 q n) = W7 m c (ix2 q n) := by
  show W7 m c (((cfg0.win 4).blk t).view.emb (ix2 q n)) = _
  obtain ⟨-, -, -, -, -, -, -, e7, e8, -⟩ := idx_facts t
  refine congrArg (W7 m c) (funext fun a => Fin.ext ?_)
  match a with
  | ⟨0, _⟩ => show win0_4.index t (0 : Fin 2) * 30 + 1 * q.val = q.val; omega
  | ⟨1, _⟩ => show win0_4.index t (1 : Fin 2) * 256 + 1 * n.val = n.val; omega
theorem iblk5_apply (c : Dev nD) (t : Fin cfg0.N) (u : Fin 1) (n : Fin 256) : iblk m c 5 t (ix2 u n) = W8 m c (ix2 u n) := by
  show W8 m c (((cfg0.win 5).blk t).view.emb (ix2 u n)) = _
  obtain ⟨-, -, -, -, -, -, -, -, -, e9, e10, -⟩ := idx_facts t
  refine congrArg (W8 m c) (funext fun a => Fin.ext ?_)
  match a with
  | ⟨0, _⟩ => show win0_5.index t (0 : Fin 2) * 1 + 1 * u.val = u.val; omega
  | ⟨1, _⟩ => show win0_5.index t (1 : Fin 2) * 256 + 1 * n.val = n.val; omega
theorem iblk6_apply (c : Dev nD) (t : Fin cfg0.N) (j : Fin 32) (n : Fin 8) : iblk m c 6 t (ix2 j n) = W10 m c (ix2 j n) := by
  show W10 m c (((cfg0.win 6).blk t).view.emb (ix2 j n)) = _
  obtain ⟨-, -, -, -, -, -, -, -, -, -, -, e11, e12, -⟩ := idx_facts t
  refine congrArg (W10 m c) (funext fun a => Fin.ext ?_)
  match a with
  | ⟨0, _⟩ => show win0_6.index t (0 : Fin 2) * 32 + 1 * j.val = j.val; omega
  | ⟨1, _⟩ => show win0_6.index t (1 : Fin 2) * 8 + 1 * n.val = n.val; omega
theorem iblk7_apply (c : Dev nD) (t : Fin cfg0.N) (u : Fin 1) (n : Fin 8) : iblk m c 7 t (ix2 u n) = W11 m c (ix2 u n) := by
  show W11 m c (((cfg0.win 7).blk t).view.emb (ix2 u n)) = _
  obtain ⟨-, -, -, -, -, -, -, -, -, -, -, -, -, e13, e14, -⟩ := idx_facts t
  refine congrArg (W11 m c) (funext fun a => Fin.ext ?_)
  match a with
  | ⟨0, _⟩ => show win0_7.index t (0 : Fin 2) * 1 + 1 * u.val = u.val; omega
  | ⟨1, _⟩ => show win0_7.index t (1 : Fin 2) * 8 + 1 * n.val = n.val; omega

/-- WHAT POINT `t` WRITES BACK: rows `1024 t …` of the result column. -/
theorem flushed8_eq (hidx : ∀ c r, (A1 m c (ix1 r)).toNat < 8) (c : Dev nD) (t : Fin cfg0.N) :
    (dats m 0 c).flushed 8 t = ((cfg0.win 8).blk t).view.read (Elt Ideal) (G m c) := by
  show (cfg0.win 8).cut (grid0.coords t) ((dats m 0 c).after 8 t) = _
  rw [after0_8]
  funext j
  show out0_8 (iblk m c 0 t) (iblk m c 1 t) (iblk m c 2 t) (iblk m c 3 t) (iblk m c 4 t) (iblk m c 5 t) (iblk m c 6 t) (iblk m c 7 t) j
    = G m c (((cfg0.win 8).blk t).view.emb j)
  obtain ⟨p, rfl⟩ : ∃ p : Fin 1024, j = ix1 p := ⟨j 0, eq_ix1 j⟩
  have hb : (iblk m c 1 t (ix1 p)).toNat < 8 := by rw [iblk1_apply m hidx]; exact hidx c (rowOf t p)
  obtain ⟨-, -, -, -, -, -, -, -, -, -, -, -, -, -, -, e15⟩ := idx_facts t
  have e : ((cfg0.win 8).blk t).view.emb (ix1 p) = ix1 (rowOf t p) := funext fun a => Fin.ext (by
    match a with
    | ⟨0, _⟩ => show win0_8.index t (0 : Fin 1) * 1024 + 1 * p.val = t.val * 1024 + p.val; omega)
  rw [e]
  refine (Cert.KerBody.body_row (iblk m c 0 t) (iblk m c 1 t) (iblk m c 2 t) (iblk m c 3 t) (iblk m c 4 t) (iblk m c 5 t)
    (iblk m c 6 t) (iblk m c 7 t) p hb).trans ?_
  show _ = Cert.Spec.rowAt (A0 m c) (A1 m c) (A2 m c) (A3 m c) (A4 m c) (A5 m c) (A6 m c) (A7 m c) (A8 m c) (A9 m c) (rowOf t p)
  rw [Cert.Spec.rowAt_of_lt _ _ _ _ _ _ _ _ _ _ (rowOf t p) (hidx c (rowOf t p))]
  refine rowOut_congr ?_ ?_ ?_ ?_ ?_ ?_ ?_ ?_ ?_ ?_
  · exact funext fun k => iblk0_apply m c t p k
  · exact Fin.ext (congrArg BitVec.toNat (iblk1_apply m hidx c t p))
  · exact funext fun n => funext fun k => (iblk2_apply m c t k _).trans (v4_left m c k n)
  · exact funext fun n => (iblk3_apply m c t 0 _).trans (v5_left m c n)
  · exact funext fun j => funext fun k => (iblk2_apply m c t k _).trans (v4_right m c k j)
  · exact funext fun j => (iblk3_apply m c t 0 _).trans (v5_right m c j)
  · exact funext fun n => funext fun q => (iblk4_apply m c t q n).trans (v7_apply m c q n)
  · exact funext fun n => (iblk5_apply m c t 0 n).trans (v8_apply m c n)
  · exact funext fun n => funext fun j => (iblk6_apply m c t j n).trans (v10_apply m c j n)
  · exact funext fun n => (iblk7_apply m c t 0 n).trans (v11_apply m c n)

/-- An index of the output array is in point `t`'s block iff its row is in the block's range. -/
theorem mem_blk8 (t : Fin cfg0.N) (i : S16384.Idx) :
    i ∈ ((cfg0.win 8).blk t).view.set ↔ ∀ a : Fin 1, win0_8.index t a * S1024.size a ≤ (i a).val ∧ (i a).val < win0_8.index t a * S1024.size a + S1024.size a := by
  show i ∈ ((View.whole main_v12).slice (win0_8.rect t)).set ↔ _
  rw [View.set_slice_whole, Rect.mem_set_unit]
  exact Iff.rfl

/-- The sixteen blocks tile the array: row `i` is in the block of point `i / 1024`. -/
theorem covered8 (i : S16384.Idx) : ∃ t : Fin cfg0.N, (cfg0.win 8).flush t = true ∧ i ∈ ((cfg0.win 8).blk t).view.set := by
  have hi : (i 0).val < 16384 := (i 0).isLt
  have hN : (i 0).val / 1024 < cfg0.N := lt_of_lt_of_eq (show (i 0).val / 1024 < 16 by omega) N_0.symm
  refine ⟨⟨(i 0).val / 1024, hN⟩, flush0_8 _, ?_⟩
  rw [mem_blk8]
  obtain ⟨-, -, -, -, -, -, -, -, -, -, -, -, -, -, -, e15⟩ := idx_facts ⟨(i 0).val / 1024, hN⟩
  intro a
  match a with
  | ⟨0, _⟩ =>
    show win0_8.index ⟨(i 0).val / 1024, hN⟩ (0 : Fin 1) * 1024 ≤ (i 0).val
      ∧ (i 0).val < win0_8.index ⟨(i 0).val / 1024, hN⟩ (0 : Fin 1) * 1024 + 1024
    rw [e15]
    show (i 0).val / 1024 * 1024 ≤ (i 0).val ∧ (i 0).val < (i 0).val / 1024 * 1024 + 1024
    omega

/-- THE OUTPUT ARRAY after the run is the result column. -/
theorem final8 (hidx : ∀ c r, (A1 m c (ix1 r)).toNat < 8) (c : Dev nD) : (dats m 0 c).arrAt 8 cfg0.N = G m c :=
  (dats m 0 c).arrAt_eq_of_cover 8 (G m c) (fun t _ => flushed8_eq m hidx c t) covered8

/-- The host operation after the region lays the column as a 16384 × 1 array. -/
theorem tail8 (hidx : ∀ c r, (A1 m c (ix1 r)).toNat < 8) (c : Dev nD) :
    Pipeline.afterTail₀ cfgs (dats m) 0 (V0 m) [hostOps1] c main_v13
      = (Cert.Spec.result (A0 m c) (A1 m c) (A2 m c) (A3 m c) (A4 m c) (A5 m c) (A6 m c) (A7 m c) (A8 m c) (A9 m c) : S16384x1.Idx → EReal) := by
  unfold Pipeline.afterTail₀
  show StableHlo.after hostOps1 _ (Proc.devRef .tc main_v13) = _
  after_results
  funext i
  show shapeCast S16384x1 (Pipeline.withArrays spec0 c (V0 m c) (fun w => (dats m 0 c).arrAt w cfg0.N)
    (Proc.devRef .tc (Pipeline.arrRef spec0 8))) shapeCasts_S16384_S16384x1 i = _
  rw [Pipeline.withArrays_arr spec0 launch0.win.arr_inj c _ _ 8, final8 m hidx c]
  obtain ⟨r, u, rfl⟩ : ∃ (r : Fin 16384) (u : Fin 1), i = ix2 r u := ⟨i 0, i 1, eq_ix2 i⟩
  refine (shapeCast_apply (G m c) shapeCasts_S16384_S16384x1 (ix2 r u) (ix1 r) ?_).trans rfl
  rw [Shape.rowMajor_val_one, Shape.rowMajor_val_two]
  have hu : u.val < 1 := u.isLt
  show r.val = r.val * 1 + u.val
  omega

/-- THE RUN, READ: every weakly fair execution ends with the result array at the network's result of the argument
    arrays, and the arguments unchanged. -/
theorem run (hidx : ∀ c r, (A1 m c (ix1 r)).toNat < 8) :
    θ_run defs (onTc (τ := τ) (main (F := Ideal))) ⟨m, fun _ => 0, ρ⟩ fun r => ∀ c : Dev nD,
      r.2.mem ((c.tc : Thread nD τ).loc main_v13)
        = (Cert.Spec.result (A0 m c) (A1 m c) (A2 m c) (A3 m c) (A4 m c) (A5 m c) (A6 m c) (A7 m c) (A8 m c) (A9 m c) : S16384x1.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨((h c).2 main_v13 (Pipeline.mem_restRefs_of main_v13 (by decide) (by decide))).trans (tail8 m hidx c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩)
    (run_main m ρ)

end Cert.KerArray

end
-- ==== Proof.PreIdx.lean ====
/-
  What the precondition says of the bucket indices: every index word, read as a number, is below 8.
-/
import proofs.«422395_j67645734912396_3_alg».proof.Pre_finite_inputs
import proofs.«422395_j67645734912396_3_alg».proof.Proof.Gen.Pre_finite_inputs
import Idealize.ShloMosaic.Lib.ValueIdx
import Idealize.ShloMosaic.Lib.ReduceAll
import Idealize.ShloMosaic.Lib.StableHlo.Predicate

noncomputable section

namespace Cert.PreIdx

open Idealize.ShloMosaic Idealize.ShloMosaic.ValueIdx Cert.Pre_finite_inputs

variable {F : FTy → Type} [FloatOps F]

/-- The scalar shape has one index: an index is a function out of the empty set of axes. -/
instance subsingleton_scalar_idx : Subsingleton S_.Idx := ⟨fun a b => funext fun d => d.elim0⟩

/-- A 32-bit word that is at least 0 and below 8 as a signed number is below 8 as an unsigned one: a word whose signed
    reading is nonnegative has its top bit clear, so both readings agree. -/
theorem toNat_lt_eight (w : BitVec 32) (h0 : IntOp.cmpi .sge w 0#32 = 1#1) (h8 : IntOp.cmpi .slt w 8#32 = 1#1) :
    w.toNat < 8 := by
  rw [IntOp.cmpi_sge, show (0#32 : BitVec 32).toInt = 0 from by decide] at h0
  rw [IntOp.cmpi_slt, show (8#32 : BitVec 32).toInt = 8 from by decide] at h8
  rw [BitVec.toInt_eq_toNat_cond] at h0 h8
  have hw := w.isLt
  split at h0 <;> omega

/-- The precondition's last two conjuncts are `0 ≤ idx` and `idx < 8` on every entry, signed; so every entry's word, read
    unsigned, is below 8. -/
theorem idx_lt_of_pre (x0 : FVec F S16384x3072 .f32) (x1 : IVec S16384 32) (x2 : FVec F S128x3072 .f32) (x3 : FVec F S128 .f32)
    (x4 : FVec F S16x3072 .f32) (x5 : FVec F S16 .f32) (x6 : FVec F S256x30 .f32) (x7 : FVec F S256 .f32)
    (x8 : FVec F S8x32 .f32) (x9 : FVec F S8 .f32)
    (h : Cert.Pre_finite_inputs.fn (F := F) x0 x1 x2 x3 x4 x5 x6 x7 x8 x9 = fun _ => 1#1) (r : Fin 16384) :
    (x1 (ix1 r)).toNat < 8 := by
  -- the predicate's one word is 1
  have e := congrFun h ix0
  dsimp only [fn, fn_part1, fn_part2, fn_part3] at e
  -- the word is a conjunction; its last two conjuncts are the two range tests, each an `all` over the 16384 entries
  obtain ⟨e', hlt⟩ := IntOp.andi_eq_one.1 e
  obtain ⟨-, hge⟩ := IntOp.andi_eq_one.1 e'
  -- an `all` that holds, holds at entry r; there the compared constant, broadcast from a scalar, reads as itself
  have a0 : IntOp.cmpi .sge (x1 (ix1 r)) 0#32 = 1#1 := Host.reduce_andi_all _ _ _ _ ix0 hge (ix1 r)
  have a8 : IntOp.cmpi .slt (x1 (ix1 r)) 8#32 = 1#1 := Host.reduce_andi_all _ _ _ _ ix0 hlt (ix1 r)
  exact toNat_lt_eight _ a0 a8

end Cert.PreIdx

end
-- ==== Proof.lean ====
/-
  The kernel and its reference compute the same function on the extended reals, for bucket indices in range.

  A row's bucket index selects one of eight buckets. The reference computes each layer densely over all buckets and
  gathers the row's bucket; the kernel weights the eight buckets' outputs by a one-hot row and sums, which keeps the
  same bucket because 0 · x = 0 and 1 · x = x for every extended real x and 0 + x = x. Both are the row's result
  `Cert.Spec.rowOut`: the kernel's stored block row by row (`Cert.KerBody`), its output array block by block and
  the host operations around the region (`Cert.KerHost`, `Cert.KerArray`); the reference's stages one operation at
  a time (`Cert.RefTake`, `Cert.RefRow`). The precondition's index range (`Cert.PreIdx`) is what makes the
  reference's out-of-range handling and the kernel's clamp both the identity. The finiteness of the float inputs
  is not used. The frames are the generated ones; the idealization rewrote nothing.
-/
import proofs.«422395_j67645734912396_3_alg».proof.Defs
import proofs.«422395_j67645734912396_3_alg».proof.Proof.Gen.Kernel
import proofs.«422395_j67645734912396_3_alg».proof.Proof.Gen.Kernel.Skeleton
import proofs.«422395_j67645734912396_3_alg».proof.Proof.Gen.Kernel.Launch
import proofs.«422395_j67645734912396_3_alg».proof.Proof.Gen.Kernel.Points
import proofs.«422395_j67645734912396_3_alg».proof.Proof.Gen.Kernel.Frame
import proofs.«422395_j67645734912396_3_alg».proof.Proof.Gen.KernelIdeal
import proofs.«422395_j67645734912396_3_alg».proof.Proof.Gen.KernelIdeal.Skeleton
import proofs.«422395_j67645734912396_3_alg».proof.Proof.Gen.KernelIdeal.Launch
import proofs.«422395_j67645734912396_3_alg».proof.Proof.Gen.KernelIdeal.Points
import proofs.«422395_j67645734912396_3_alg».proof.Proof.Gen.KernelIdeal.Frame
import proofs.«422395_j67645734912396_3_alg».proof.Proof.Gen.ReferenceIdeal
import proofs.«422395_j67645734912396_3_alg».proof.Proof.Gen.Pre_finite_inputs
import proofs.«422395_j67645734912396_3_alg».proof.Proof.RefRun
import proofs.«422395_j67645734912396_3_alg».proof.Proof.RefRead
import proofs.«422395_j67645734912396_3_alg».proof.Proof.RefRow
import proofs.«422395_j67645734912396_3_alg».proof.Proof.KerArray
import proofs.«422395_j67645734912396_3_alg».proof.Proof.PreIdx
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end at the network's result of the argument arrays, row by row. -/
theorem algebraic : Cert.algebraic_KernelIdeal_ReferenceIdeal := by
  intro m ρ m' ρ' hpre hagree
  have hidx : ∀ c r, (Cert.KerArray.A1 m c (ix1 r)).toNat < 8 := fun c r =>
    Cert.PreIdx.idx_lt_of_pre _ _ _ _ _ _ _ _ _ _ (hpre c) r
  refine ⟨fun c => Cert.Spec.result (Cert.KerArray.A0 m c) (Cert.KerArray.A1 m c) (Cert.KerArray.A2 m c) (Cert.KerArray.A3 m c) (Cert.KerArray.A4 m c) (Cert.KerArray.A5 m c) (Cert.KerArray.A6 m c) (Cert.KerArray.A7 m c) (Cert.KerArray.A8 m c) (Cert.KerArray.A9 m c),
    Cert.KerArray.run m ρ hidx, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2]
  funext i
  obtain ⟨r, u, rfl⟩ : ∃ (r : Fin 16384) (u : Fin 1), i = ix2 r u := ⟨i 0, i 1, eq_ix2 i⟩
  obtain rfl : u = 0 := Subsingleton.elim _ _
  exact Cert.RefRow.ref_row _ _ _ _ _ _ _ _ _ _ r (hidx c r)

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
